-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x1024x1024 .f32) (main_arg1 : IVec S8x1024 1) (main_arg2 : FVec F S1x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S8x1024x1024 : Shape := ⟨3, ![8, 1024, 1024]⟩
abbrev S8x1024 : Shape := ⟨2, ![8, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x1x1024 : Shape := ⟨3, ![8, 1, 1024]⟩
abbrev S1x256x256 : Shape := ⟨3, ![1, 256, 256]⟩
abbrev S1x1x256 : Shape := ⟨3, ![1, 1, 256]⟩
abbrev S256x256 : Shape := ⟨2, ![256, 256]⟩
abbrev S256x1x256 : Shape := ⟨3, ![256, 1, 256]⟩
abbrev S1x32x1 : Shape := ⟨3, ![1, 32, 1]⟩
abbrev S256x32x256 : Shape := ⟨3, ![256, 32, 256]⟩
abbrev S256 : Shape := ⟨1, ![256]⟩
abbrev S256x1 : Shape := ⟨2, ![256, 1]⟩
abbrev S1x256 : Shape := ⟨2, ![1, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i1⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8x1024, .f32⟩
  | .hbm, ⟨9, _⟩ => ⟨S8x1x1024, .f32⟩
  | .hbm, ⟨10, _⟩ => ⟨S8x1024x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x32, .f32⟩
  | .local _ .vmem, ⟨9, _⟩ => ⟨S32, .f32⟩
  | .local _ .vmem, ⟨10, _⟩ => ⟨S32x32, .f32⟩
  | .local _ .vmem, ⟨11, _⟩ => ⟨S32, .f32⟩
  | .local _ .vmem, ⟨12, _⟩ => ⟨S32x1, .f32⟩
  | .local _ .vmem, ⟨13, _⟩ => ⟨S1, .f32⟩
  | .local _ .vmem, ⟨14, _⟩ => ⟨S1x256x256, .f32⟩
  | .local _ .vmem, ⟨15, _⟩ => ⟨S1x256x256, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  shapeCasts_S8x1024_S8x1x1024 : S8x1024.ShapeCasts S8x1x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  transposes_S256x256_p1_0_S256x256 : S256x256.Transposes [1, 0] S256x256
  inb_S1x32_S1x32_0_0 : ∀ a, (![0, 0] : Fin 2 → Nat) a + S1x32.size a ≤ S1x32.size a
  h_S1x32 : 0 < S1x32.numel
  shapeCasts_S1x32_S32 : S1x32.ShapeCasts S32
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  inpos_S1_p0 : ∀ a, (![0] : Fin 1 → Nat) a < S1.size a
  shapeCasts_S256x256_S256x1x256 : S256x256.ShapeCasts S256x1x256
  shapeCasts_S32_S1x32x1 : S32.ShapeCasts S1x32x1
  broadcasts_S256x1x256_S256x32x256 : S256x1x256.Broadcasts S256x32x256
  broadcasts_S1x32x1_S256x32x256 : S1x32x1.Broadcasts S256x32x256
  slices_S32x32_o0_0_S32x1 : S32x32.Slices ![0, 0] S32x1
  shapeCasts_S32x1_S32 : S32x1.ShapeCasts S32
  reduces_S256x32x256_S256x256 : S256x32x256.Reduces [1] S256x256
  slices_S32_o0_S1 : S32.Slices ![0] S1
  slices_S32x32_o0_1_S32x1 : S32x32.Slices ![0, 1] S32x1
  slices_S32_o1_S1 : S32.Slices ![1] S1
  slices_S32x32_o0_2_S32x1 : S32x32.Slices ![0, 2] S32x1
  slices_S32_o2_S1 : S32.Slices ![2] S1
  slices_S32x32_o0_3_S32x1 : S32x32.Slices ![0, 3] S32x1
  slices_S32_o3_S1 : S32.Slices ![3] S1
  slices_S32x32_o0_4_S32x1 : S32x32.Slices ![0, 4] S32x1
  slices_S32_o4_S1 : S32.Slices ![4] S1
  slices_S32x32_o0_5_S32x1 : S32x32.Slices ![0, 5] S32x1
  slices_S32_o5_S1 : S32.Slices ![5] S1
  slices_S32x32_o0_6_S32x1 : S32x32.Slices ![0, 6] S32x1
  slices_S32_o6_S1 : S32.Slices ![6] S1
  slices_S32x32_o0_7_S32x1 : S32x32.Slices ![0, 7] S32x1
  slices_S32_o7_S1 : S32.Slices ![7] S1
  slices_S32x32_o0_8_S32x1 : S32x32.Slices ![0, 8] S32x1
  slices_S32_o8_S1 : S32.Slices ![8] S1
  slices_S32x32_o0_9_S32x1 : S32x32.Slices ![0, 9] S32x1
  slices_S32_o9_S1 : S32.Slices ![9] S1
  slices_S32x32_o0_10_S32x1 : S32x32.Slices ![0, 10] S32x1
  slices_S32_o10_S1 : S32.Slices ![10] S1
  slices_S32x32_o0_11_S32x1 : S32x32.Slices ![0, 11] S32x1
  slices_S32_o11_S1 : S32.Slices ![11] S1
  slices_S32x32_o0_12_S32x1 : S32x32.Slices ![0, 12] S32x1
  slices_S32_o12_S1 : S32.Slices ![12] S1
  slices_S32x32_o0_13_S32x1 : S32x32.Slices ![0, 13] S32x1
  slices_S32_o13_S1 : S32.Slices ![13] S1
  slices_S32x32_o0_14_S32x1 : S32x32.Slices ![0, 14] S32x1
  slices_S32_o14_S1 : S32.Slices ![14] S1
  slices_S32x32_o0_15_S32x1 : S32x32.Slices ![0, 15] S32x1
  slices_S32_o15_S1 : S32.Slices ![15] S1
  slices_S32x32_o0_16_S32x1 : S32x32.Slices ![0, 16] S32x1
  slices_S32_o16_S1 : S32.Slices ![16] S1
  slices_S32x32_o0_17_S32x1 : S32x32.Slices ![0, 17] S32x1
  slices_S32_o17_S1 : S32.Slices ![17] S1
  slices_S32x32_o0_18_S32x1 : S32x32.Slices ![0, 18] S32x1
  slices_S32_o18_S1 : S32.Slices ![18] S1
  slices_S32x32_o0_19_S32x1 : S32x32.Slices ![0, 19] S32x1
  slices_S32_o19_S1 : S32.Slices ![19] S1
  slices_S32x32_o0_20_S32x1 : S32x32.Slices ![0, 20] S32x1
  slices_S32_o20_S1 : S32.Slices ![20] S1
  slices_S32x32_o0_21_S32x1 : S32x32.Slices ![0, 21] S32x1
  slices_S32_o21_S1 : S32.Slices ![21] S1
  slices_S32x32_o0_22_S32x1 : S32x32.Slices ![0, 22] S32x1
  slices_S32_o22_S1 : S32.Slices ![22] S1
  slices_S32x32_o0_23_S32x1 : S32x32.Slices ![0, 23] S32x1
  slices_S32_o23_S1 : S32.Slices ![23] S1
  slices_S32x32_o0_24_S32x1 : S32x32.Slices ![0, 24] S32x1
  slices_S32_o24_S1 : S32.Slices ![24] S1
  slices_S32x32_o0_25_S32x1 : S32x32.Slices ![0, 25] S32x1
  slices_S32_o25_S1 : S32.Slices ![25] S1
  slices_S32x32_o0_26_S32x1 : S32x32.Slices ![0, 26] S32x1
  slices_S32_o26_S1 : S32.Slices ![26] S1
  slices_S32x32_o0_27_S32x1 : S32x32.Slices ![0, 27] S32x1
  slices_S32_o27_S1 : S32.Slices ![27] S1
  slices_S32x32_o0_28_S32x1 : S32x32.Slices ![0, 28] S32x1
  slices_S32_o28_S1 : S32.Slices ![28] S1
  slices_S32x32_o0_29_S32x1 : S32x32.Slices ![0, 29] S32x1
  slices_S32_o29_S1 : S32.Slices ![29] S1
  slices_S32x32_o0_30_S32x1 : S32x32.Slices ![0, 30] S32x1
  slices_S32_o30_S1 : S32.Slices ![30] S1
  slices_S32x32_o0_31_S32x1 : S32x32.Slices ![0, 31] S32x1
  slices_S32_o31_S1 : S32.Slices ![31] S1
  concatenates_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x32x256_d1 : Shape.Concatenates [S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256, S256x1x256] S256x32x256 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S256 : S1x1x256.ShapeCasts S256
  shapeCasts_S256_S256x1 : S256.ShapeCasts S256x1
  shapeCasts_S256_S1x256 : S256.ShapeCasts S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  natLt_1_32 : 1 < 32
  shapeCasts_S256x256_S1x256x256 : S256x256.ShapeCasts S1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x1024x1024.size a
  hwx0_0 : ∀ i : grid0.Coords, EltTy.bits .f32 = 32 ∨ (Rect.block (s := S8x1024x1024) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x1024x1024.size a
  hwx0_1 : ∀ i : grid0.Coords, EltTy.bits .f32 = 32 ∨ (Rect.block (s := S8x1024x1024) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x1024.size a
  hwx0_2 : ∀ i : grid0.Coords, EltTy.bits .f32 = 32 ∨ (Rect.block (s := S8x1x1024) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x1024.size a
  hwx0_3 : ∀ i : grid0.Coords, EltTy.bits .f32 = 32 ∨ (Rect.block (s := S8x1x1024) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x256.size a ≤ S8x1024x1024.size a
  hwx0_10 : ∀ i : grid0.Coords, EltTy.bits .f32 = 32 ∨ (Rect.block (s := S8x1024x1024) S1x256x256.size (cc0_transform_10 i) (hinb0_10 i)).WholeWords (EltTy.packing .f32)

variable [Facts₀]

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x256x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8x1024x1 : Shape := ⟨3, ![8, 1024, 1]⟩
abbrev S8x1x1024 : Shape := ⟨3, ![8, 1, 1024]⟩
abbrev S8x1024x1024x1 : Shape := ⟨4, ![8, 1024, 1024, 1]⟩
abbrev S1x1x1x32 : Shape := ⟨4, ![1, 1, 1, 32]⟩
abbrev S8x1024x1024x32 : Shape := ⟨4, ![8, 1024, 1024, 32]⟩
abbrev S_ : Shape := ⟨0, ![]⟩
abbrev S1x1x1x1 : Shape := ⟨4, ![1, 1, 1, 1]⟩
abbrev S1024x1024 : Shape := ⟨2, ![1024, 1024]⟩
abbrev S1x1024x1024 : Shape := ⟨3, ![1, 1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i1⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8x1024x1, .i1⟩
  | .hbm, ⟨9, _⟩ => ⟨S8x1x1024, .i1⟩
  | .hbm, ⟨10, _⟩ => ⟨S8x1024x1024, .i1⟩
  | .hbm, ⟨11, _⟩ => ⟨S8x1024x1024, .i1⟩
  | .hbm, ⟨12, _⟩ => ⟨S8x1024x1024, .i1⟩
  | .hbm, ⟨13, _⟩ => ⟨S8x1024x1024x1, .f32⟩
  | .hbm, ⟨14, _⟩ => ⟨S32, .f32⟩
  | .hbm, ⟨15, _⟩ => ⟨S1x1x1x32, .f32⟩
  | .hbm, ⟨16, _⟩ => ⟨S8x1024x1024x32, .f32⟩
  | .hbm, ⟨17, _⟩ => ⟨S8x1024x1024x32, .f32⟩
  | .hbm, ⟨18, _⟩ => ⟨S8x1024x1024x32, .f32⟩
  | .hbm, ⟨19, _⟩ => ⟨S1x1x1x32, .f32⟩
  | .hbm, ⟨20, _⟩ => ⟨S8x1024x1024x32, .f32⟩
  | .hbm, ⟨21, _⟩ => ⟨S8x1024x1024x32, .f32⟩
  | .hbm, ⟨22, _⟩ => ⟨S_, .f32⟩
  | .hbm, ⟨23, _⟩ => ⟨S8x1024x1024x32, .f32⟩
  | .hbm, ⟨24, _⟩ => ⟨S8x1024x1024x32, .f32⟩
  | .hbm, ⟨25, _⟩ => ⟨S8x1024x1024x32, .f32⟩
  | .hbm, ⟨26, _⟩ => ⟨S1x1x1x32, .f32⟩
  | .hbm, ⟨27, _⟩ => ⟨S8x1024x1024x32, .f32⟩
  | .hbm, ⟨28, _⟩ => ⟨S8x1024x1024x32, .f32⟩
  | .hbm, ⟨29, _⟩ => ⟨S_, .f32⟩
  | .hbm, ⟨30, _⟩ => ⟨S8x1024x1024x32, .f32⟩
  | .hbm, ⟨31, _⟩ => ⟨S8x1024x1024x32, .f32⟩
  | .hbm, ⟨32, _⟩ => ⟨S8x1024x1024x1, .f32⟩
  | .hbm, ⟨33, _⟩ => ⟨S1x1x1x1, .f32⟩
  | .hbm, ⟨34, _⟩ => ⟨S8x1024x1024x1, .f32⟩
  | .hbm, ⟨35, _⟩ => ⟨S8x1024x1024x1, .f32⟩
  | .hbm, ⟨36, _⟩ => ⟨S8x1024x1024x1, .f32⟩
  | .hbm, ⟨37, _⟩ => ⟨S8x1024x1024x1, .f32⟩
  | .hbm, ⟨38, _⟩ => ⟨S_, .f32⟩
  | .hbm, ⟨39, _⟩ => ⟨S8x1024x1024x1, .f32⟩
  | .hbm, ⟨40, _⟩ => ⟨S8x1024x1024x1, .f32⟩
  | .hbm, ⟨41, _⟩ => ⟨S_, .f32⟩
  | .hbm, ⟨42, _⟩ => ⟨S8x1024x1024x1, .f32⟩
  | .hbm, ⟨43, _⟩ => ⟨S8x1024x1024x1, .f32⟩
  | .hbm, ⟨44, _⟩ => ⟨S8x1024x1024, .f32⟩
  | .hbm, ⟨45, _⟩ => ⟨S_, .f32⟩
  | .hbm, ⟨46, _⟩ => ⟨S8x1024x1024, .f32⟩
  | .hbm, ⟨47, _⟩ => ⟨S8x1024x1024, .f32⟩
  | .hbm, ⟨48, _⟩ => ⟨S8x1024x1024, .f32⟩
  | .hbm, ⟨49, _⟩ => ⟨S8x1024x1024, .f32⟩
  | .hbm, ⟨50, _⟩ => ⟨S_, .f32⟩
  | .hbm, ⟨51, _⟩ => ⟨S8x1024x1024, .f32⟩
  | .hbm, ⟨52, _⟩ => ⟨S8x1024x1024, .f32⟩
  | .hbm, ⟨53, _⟩ => ⟨S1024x1024, .i32⟩
  | .hbm, ⟨54, _⟩ => ⟨S1024x1024, .i32⟩
  | .hbm, ⟨55, _⟩ => ⟨S_, .i32⟩
  | .hbm, ⟨56, _⟩ => ⟨S1024x1024, .i32⟩
  | .hbm, ⟨57, _⟩ => ⟨S1024x1024, .i32⟩
  | .hbm, ⟨58, _⟩ => ⟨S1024x1024, .i1⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S1x1024x1024, .f32⟩
  | .hbm, ⟨64, _⟩ => ⟨S8x1024x1024, .f32⟩
  | .hbm, ⟨65, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S8x1024x1024_S8x1024x1024x1_0_1_2 : S8x1024x1024.BroadcastsInDim S8x1024x1024x1 (![0, 1, 2] : Fin 3 → Fin S8x1024x1024x1.rank)
  shapeCasts_S1x32_S32 : S1x32.ShapeCasts S32
  bcast_S32_S1x1x1x32_3 : S32.BroadcastsInDim S1x1x1x32 (![3] : Fin 1 → Fin S1x1x1x32.rank)
  bcast_S8x1024x1024x1_S8x1024x1024x32_0_1_2_3 : S8x1024x1024x1.BroadcastsInDim S8x1024x1024x32 (![0, 1, 2, 3] : Fin 4 → Fin S8x1024x1024x32.rank)
  bcast_S1x1x1x32_S8x1024x1024x32_0_1_2_3 : S1x1x1x32.BroadcastsInDim S8x1024x1024x32 (![0, 1, 2, 3] : Fin 4 → Fin S8x1024x1024x32.rank)
  bcast_S_S8x1024x1024x32 : S_.BroadcastsInDim S8x1024x1024x32 (![] : Fin 0 → Fin S8x1024x1024x32.rank)
  bcast_S1_S1x1x1x1_3 : S1.BroadcastsInDim S1x1x1x1 (![3] : Fin 1 → Fin S1x1x1x1.rank)
  bcast_S1x1x1x1_S8x1024x1024x1_0_1_2_3 : S1x1x1x1.BroadcastsInDim S8x1024x1024x1 (![0, 1, 2, 3] : Fin 4 → Fin S8x1024x1024x1.rank)
  bcast_S_S8x1024x1024x1 : S_.BroadcastsInDim S8x1024x1024x1 (![] : Fin 0 → Fin S8x1024x1024x1.rank)
  shapeCasts_S8x1024x1024x1_S8x1024x1024 : S8x1024x1024x1.ShapeCasts S8x1024x1024
  bcast_S_S8x1024x1024 : S_.BroadcastsInDim S8x1024x1024 (![] : Fin 0 → Fin S8x1024x1024.rank)
  transposes_S8x1024x1024_S8x1024x1024_0_2_1 : S8x1024x1024.Transposes [0, 2, 1] S8x1024x1024
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  dot_S8x1024x1024x32_S32x32_S8x1024x1024x32_3_0_012_1_n_n_wf : DotDims.WF S8x1024x1024x32 S32x32 S8x1024x1024x32 [3] [0] [0, 1, 2] [1] [] []
  dot_S8x1024x1024x32_S32x1_S8x1024x1024x1_3_0_012_1_n_n_wf : DotDims.WF S8x1024x1024x32 S32x1 S8x1024x1024x1 [3] [0] [0, 1, 2] [1] [] []

variable [Facts₀]

def dot_S8x1024x1024x32_S32x32_S8x1024x1024x32_3_0_012_1_n_n : DotDims S8x1024x1024x32 S32x32 S8x1024x1024x32 where
  lhsContracting := [3]
  rhsContracting := [0]
  lhsNonContracting := [0, 1, 2]
  rhsNonContracting := [1]
  lhsBatch := []
  rhsBatch := []
  wf := dot_S8x1024x1024x32_S32x32_S8x1024x1024x32_3_0_012_1_n_n_wf
def dot_S8x1024x1024x32_S32x1_S8x1024x1024x1_3_0_012_1_n_n : DotDims S8x1024x1024x32 S32x1 S8x1024x1024x1 where
  lhsContracting := [3]
  rhsContracting := [0]
  lhsNonContracting := [0, 1, 2]
  rhsNonContracting := [1]
  lhsBatch := []
  rhsBatch := []
  wf := dot_S8x1024x1024x32_S32x1_S8x1024x1024x1_3_0_012_1_n_n_wf

class Facts : Prop extends Facts₀ where

variable [Facts]
-- ==== Proof.RunBits.lean ====
import proofs.«134683_j58007828300453_1_alg».proof.Proof.Gen.Kernel.Launch
import proofs.«134683_j58007828300453_1_alg».proof.Proof.Gen.Kernel.Skeleton
import proofs.«134683_j58007828300453_1_alg».proof.Proof.Gen.Kernel.Points
import Idealize.ShloMosaic.Lib.Pipeline.FrameBody
import Idealize.ShloMosaic.Lib.Ring
import Idealize.ShloMosaic.Lib.Tactic

/-! The kernel body, run once on whole staging buffers.

The body reads its ten input buffers, computes the masked symmetric average of the two
multilayer-perceptron branches, and overwrites the whole output buffer with it. Here the body is run
symbolically: every input buffer is held at given contents and returned unchanged, and the output buffer
ends holding the one piece the single store writes. The stored value is whatever the run finds; later
modules read it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's store leaves in the output buffer (found by the run), with the proof that from the ten
    input buffers at contents `x0 … x9` and the output buffer at anything, the body runs to a state holding the inputs
    as they were and the output buffer with those pieces written. -/
noncomputable def kernelRun (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) :
    { L : List (View.Piece (Elt F) S1x256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact H10

end Cert.Kernel.Hand

end
-- ==== Proof.OutBits.lean ====
import proofs.«134683_j58007828300453_1_alg».proof.Proof.RunBits

/-! What the body leaves in the output buffer, as a value.

The run of the body found the pieces its single store writes. Read back over any prior contents they give the whole
block, because the one piece covers it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One staging buffer of the output window, through which the block's contents are stated; the choice does not matter
    because the pieces cover the block. -/
abbrev VO : View sig .tc .vmem S1x256x256 .f32 := (Memref.whole cc0_stg10_0 : Memref sig .tc .vmem S1x256x256 .f32).view

/-- The single stored piece covers the whole output block. -/
theorem cover (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) (y : S1x256x256.Idx) :
    ∃ pc ∈ (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1 S1x256x256.size (by sl_kernel_rfl) y

/-- The output block after the body: the stored pieces read back. -/
def outv (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) : Vec F S1x256x256 .f32 :=
  VO.read (Elt F) (VO.writes (Elt F) VO.junk (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1)

end Cert.Kernel.Hand

end
-- ==== Proof.FrameBits.lean ====
import proofs.«134683_j58007828300453_1_alg».proof.Proof.OutBits

/-! The frame of the program: it runs to the end, faults nowhere, and leaves its arguments unchanged.

The program converts the node masks to numbers, reshapes them, and launches one pipelined region over a grid of
8 x 4 x 4 points. Two pairs of the region's windows read ONE array each: the similarity matrix is read through the
direct and the mirrored tile, the mask row through the row and the column block. Each such array is therefore held in
two halves, one per window; every other input array and the output array are held whole. At each grid point every
input buffer holds its window's block of the array as the region found it, fetched there or not, and the body leaves
in the output buffer the value its run found. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks and buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, as the pipeline passes it to the body, and its wholeness. -/
abbrev ms0 (t : Fin cfg0.N) : Memref sig .tc .vmem S1x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256x256 .f32 := win0_10.stage (cfg0.slots t 10)
abbrev hs10 (t : Fin cfg0.N) : (ms10 t).IsWhole := hstage0_10 ((cfg0.slots t 10).cast nbuf0_10)

/-- An input window's current buffer holds its block at every point, fetched there or not (unfetched, the block index
    has not moved), for any proof data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`: the arrays as the region finds them; after the body each input buffer
    at its block and the output buffer at the value the body's run found; between points only the scoped rest; nothing owed;
    the two shared arrays in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
/-- The body at any point: the input buffers hold their blocks, so the body's run applies; the invariant and what the core
    owes pass through unread; the stored piece covers the output buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  unfold outv
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover c _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchBits.lean ====
import proofs.«134683_j58007828300453_1_alg».proof.Proof.FrameBits

/-! The launch: from the body obligation to the run of the whole program.

The arrays behind the windows are nine buffers for eleven windows. The similarity matrix and the reshaped mask are each
split into two halves of one share, one half per window that reads them; the library's launch for windows that share
arrays then gives the run, with every windowed array at what the proof data compute and every other buffer as the region
found it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array in the pipeline's form is the buffer behind it, whole, at the window's share and the region-entry
    contents. -/
theorem arr_pt (c : Dev nD) (w : Fin 11) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The buffers behind the windows' arrays, listed: nine buffers for eleven windows. -/
theorem arrBufs_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0) ∗ (((c.tc : Thread nD τ).loc main_v1) ↦{fullShare} V main_v1) ∗ (((c.tc : Thread nD τ).loc main_arg2) ↦{fullShare} V main_arg2) ∗ (((c.tc : Thread nD τ).loc main_arg3) ↦{fullShare} V main_arg3) ∗ (((c.tc : Thread nD τ).loc main_arg4) ↦{fullShare} V main_arg4) ∗ (((c.tc : Thread nD τ).loc main_arg5) ↦{fullShare} V main_arg5) ∗ (((c.tc : Thread nD τ).loc main_arg6) ↦{fullShare} V main_arg6) ∗ (((c.tc : Thread nD τ).loc main_arg7) ↦{fullShare} V main_arg7) ∗ (((c.tc : Thread nD τ).loc main_v2) ↦{fullShare} V main_v2)) := by
  unfold Pipeline.arrBufs
  exact bigSep_eq_bigSepL_of_eq [main_arg0, main_v1, main_arg2, main_arg3, main_arg4, main_arg5, main_arg6, main_arg7, main_v2] (by decide) (by decide) _

/-- The nine buffers behind the windows' arrays, each whole at the full share, make the pipeline's eleven arrays: the two
    buffers read through two windows are split in halves. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_pt m c 0, arr_pt m c 1, arr_pt m c 2, arr_pt m c 3, arr_pt m c 4, arr_pt m c 5, arr_pt m c 6, arr_pt m c 7,
    arr_pt m c 8, arr_pt m c 9, arr_pt m c 10]
  iintro ⟨Ha0, Hv1, Ha2, Ha3, Ha4, Ha5, Ha6, Ha7, Hv2⟩
  ihave Hs0 := (pointsTo_share (PosShare.mem_left_op_right fullShare)).1 $$ Ha0
  icases Hs0 with ⟨Ha0l, Ha0r⟩
  ihave Hs1 := (pointsTo_share (PosShare.mem_left_op_right fullShare)).1 $$ Hv1
  icases Hs1 with ⟨Hv1l, Hv1r⟩
  isplitl [Ha0l]; · iexact Ha0l
  isplitl [Ha0r]; · iexact Ha0r
  isplitl [Hv1l]; · iexact Hv1l
  isplitl [Hv1r]; · iexact Hv1r
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexact Hv2

set_option backward.isDefEq.respectTransparency.types false in
/-- From any memory with zero counters every weakly fair execution of the program terminates, and in every final state each
    windowed array holds what the proof data compute and every other buffer what the region found. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => show iprop(emp ∗ Pipeline.scopedRest spec0 c) ⊢ Pipeline.scopedRest spec0 c from by
      iintro ⟨-, H⟩
      iexact H)
    (hout := fun c => show Pipeline.scopedRest spec0 c ⊢ iprop(emp ∗ Pipeline.scopedRest spec0 c) from by
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the program runs to the end and its eight arguments end unchanged. An argument a window stages is an input
    array, never written; the mask argument is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c)))⟩) (run_main m ρ)

end Cert.Kernel.Hand

end
-- ==== Proof.RunIdeal.lean ====
import proofs.«134683_j58007828300453_1_alg».proof.Proof.Gen.KernelIdeal.Launch
import proofs.«134683_j58007828300453_1_alg».proof.Proof.Gen.KernelIdeal.Skeleton
import proofs.«134683_j58007828300453_1_alg».proof.Proof.Gen.KernelIdeal.Points
import Idealize.ShloMosaic.Lib.Pipeline.FrameBody
import Idealize.ShloMosaic.Lib.Ring
import Idealize.ShloMosaic.Lib.Tactic

/-! The kernel body, run once on whole staging buffers.

The body reads its ten input buffers, computes the masked symmetric average of the two
multilayer-perceptron branches, and overwrites the whole output buffer with it. Here the body is run
symbolically: every input buffer is held at given contents and returned unchanged, and the output buffer
ends holding the one piece the single store writes. The stored value is whatever the run finds; later
modules read it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's store leaves in the output buffer (found by the run), with the proof that from the ten
    input buffers at contents `x0 … x9` and the output buffer at anything, the body runs to a state holding the inputs
    as they were and the output buffer with those pieces written. -/
noncomputable def kernelRun (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) :
    { L : List (View.Piece (Elt F) S1x256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    iexists _; iexact H10

end Cert.KernelIdeal.Hand

end
-- ==== Proof.OutIdeal.lean ====
import proofs.«134683_j58007828300453_1_alg».proof.Proof.RunIdeal

/-! What the body leaves in the output buffer, as a value.

The run of the body found the pieces its single store writes. Read back over any prior contents they give the whole
block, because the one piece covers it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One staging buffer of the output window, through which the block's contents are stated; the choice does not matter
    because the pieces cover the block. -/
abbrev VO : View sig .tc .vmem S1x256x256 .f32 := (Memref.whole cc0_stg10_0 : Memref sig .tc .vmem S1x256x256 .f32).view

/-- The single stored piece covers the whole output block. -/
theorem cover (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) (y : S1x256x256.Idx) :
    ∃ pc ∈ (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1 S1x256x256.size (by sl_kernel_rfl) y

/-- The output block after the body: the stored pieces read back. -/
def outv (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec F S1x256x256 .f32) (x1 : Vec F S1x256x256 .f32) (x2 : Vec F S1x1x256 .f32) (x3 : Vec F S1x1x256 .f32) (x4 : Vec F S1x32 .f32) (x5 : Vec F S32 .f32) (x6 : Vec F S32x32 .f32) (x7 : Vec F S32 .f32) (x8 : Vec F S32x1 .f32) (x9 : Vec F S1 .f32) : Vec F S1x256x256 .f32 :=
  VO.read (Elt F) (VO.writes (Elt F) VO.junk (kernelRun c i arg3 harg3 arg4 harg4 arg5 harg5 arg6 harg6 arg7 harg7 arg8 harg8 arg9 harg9 arg10 harg10 arg11 harg11 arg12 harg12 arg13 harg13 x0 x1 x2 x3 x4 x5 x6 x7 x8 x9).1)

end Cert.KernelIdeal.Hand

end
-- ==== Proof.FrameIdeal.lean ====
import proofs.«134683_j58007828300453_1_alg».proof.Proof.OutIdeal

/-! The frame of the program: it runs to the end, faults nowhere, and leaves its arguments unchanged.

The program converts the node masks to numbers, reshapes them, and launches one pipelined region over a grid of
8 x 4 x 4 points. Two pairs of the region's windows read ONE array each: the similarity matrix is read through the
direct and the mirrored tile, the mask row through the row and the column block. Each such array is therefore held in
two halves, one per window; every other input array and the output array are held whole. At each grid point every
input buffer holds its window's block of the array as the region found it, fetched there or not, and the body leaves
in the output buffer the value its run found. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks and buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging buffer at point `t`, as the pipeline passes it to the body, and its wholeness. -/
abbrev ms0 (t : Fin cfg0.N) : Memref sig .tc .vmem S1x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256x256 .f32 := win0_10.stage (cfg0.slots t 10)
abbrev hs10 (t : Fin cfg0.N) : (ms10 t).IsWhole := hstage0_10 ((cfg0.slots t 10).cast nbuf0_10)

/-- An input window's current buffer holds its block at every point, fetched there or not (unfetched, the block index
    has not moved), for any proof data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`: the arrays as the region finds them; after the body each input buffer
    at its block and the output buffer at the value the body's run found; between points only the scoped rest; nothing owed;
    the two shared arrays in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
/-- The body at any point: the input buffers hold their blocks, so the body's run applies; the invariant and what the core
    owes pass through unread; the stored piece covers the output buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  unfold outv
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover c _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LaunchIdeal.lean ====
import proofs.«134683_j58007828300453_1_alg».proof.Proof.FrameIdeal

/-! The launch: from the body obligation to the run of the whole program.

The arrays behind the windows are nine buffers for eleven windows. The similarity matrix and the reshaped mask are each
split into two halves of one share, one half per window that reads them; the library's launch for windows that share
arrays then gives the run, with every windowed array at what the proof data compute and every other buffer as the region
found it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array in the pipeline's form is the buffer behind it, whole, at the window's share and the region-entry
    contents. -/
theorem arr_pt (c : Dev nD) (w : Fin 11) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The buffers behind the windows' arrays, listed: nine buffers for eleven windows. -/
theorem arrBufs_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0) ∗ (((c.tc : Thread nD τ).loc main_v1) ↦{fullShare} V main_v1) ∗ (((c.tc : Thread nD τ).loc main_arg2) ↦{fullShare} V main_arg2) ∗ (((c.tc : Thread nD τ).loc main_arg3) ↦{fullShare} V main_arg3) ∗ (((c.tc : Thread nD τ).loc main_arg4) ↦{fullShare} V main_arg4) ∗ (((c.tc : Thread nD τ).loc main_arg5) ↦{fullShare} V main_arg5) ∗ (((c.tc : Thread nD τ).loc main_arg6) ↦{fullShare} V main_arg6) ∗ (((c.tc : Thread nD τ).loc main_arg7) ↦{fullShare} V main_arg7) ∗ (((c.tc : Thread nD τ).loc main_v2) ↦{fullShare} V main_v2)) := by
  unfold Pipeline.arrBufs
  exact bigSep_eq_bigSepL_of_eq [main_arg0, main_v1, main_arg2, main_arg3, main_arg4, main_arg5, main_arg6, main_arg7, main_v2] (by decide) (by decide) _

/-- The nine buffers behind the windows' arrays, each whole at the full share, make the pipeline's eleven arrays: the two
    buffers read through two windows are split in halves. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_pt m c 0, arr_pt m c 1, arr_pt m c 2, arr_pt m c 3, arr_pt m c 4, arr_pt m c 5, arr_pt m c 6, arr_pt m c 7,
    arr_pt m c 8, arr_pt m c 9, arr_pt m c 10]
  iintro ⟨Ha0, Hv1, Ha2, Ha3, Ha4, Ha5, Ha6, Ha7, Hv2⟩
  ihave Hs0 := (pointsTo_share (PosShare.mem_left_op_right fullShare)).1 $$ Ha0
  icases Hs0 with ⟨Ha0l, Ha0r⟩
  ihave Hs1 := (pointsTo_share (PosShare.mem_left_op_right fullShare)).1 $$ Hv1
  icases Hs1 with ⟨Hv1l, Hv1r⟩
  isplitl [Ha0l]; · iexact Ha0l
  isplitl [Ha0r]; · iexact Ha0r
  isplitl [Hv1l]; · iexact Hv1l
  isplitl [Hv1r]; · iexact Hv1r
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexact Hv2

set_option backward.isDefEq.respectTransparency.types false in
/-- From any memory with zero counters every weakly fair execution of the program terminates, and in every final state each
    windowed array holds what the proof data compute and every other buffer what the region found. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => show iprop(emp ∗ Pipeline.scopedRest spec0 c) ⊢ Pipeline.scopedRest spec0 c from by
      iintro ⟨-, H⟩
      iexact H)
    (hout := fun c => show Pipeline.scopedRest spec0 c ⊢ iprop(emp ∗ Pipeline.scopedRest spec0 c) from by
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the program runs to the end and its eight arguments end unchanged. An argument a window stages is an input
    array, never written; the mask argument is staged by no window and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 rfl (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c)))⟩) (run_main m ρ)

end Cert.KernelIdeal.Hand

end
-- ==== Proof.Spec.lean ====
import Idealize.ShloMosaic.PureOps.Ideal
import Idealize.ShloMosaic.Lib.ValueIdx

/-! The mathematics both programs compute, on the extended reals.

A score is a three-layer perceptron applied to one number: thirty-two rectified affine maps of the number, thirty-two
rectified affine combinations of those, one affine combination of those, and the logistic function of the result.
An output entry at row `r` and column `c` of a batch is half the sum of the scores of the entry and of its mirror
image, kept only where both nodes are valid and off the diagonal. The kernel keeps an entry by multiplying with the two
node masks (as numbers) and with an off-diagonal indicator; the reference selects the score or zero before the
symmetrisation and multiplies with one minus the identity matrix. -/

noncomputable section

open scoped BigOperators

namespace Cert.Spec

open Idealize.ShloMosaic

/-- The first hidden layer at unit `g`: the rectified affine map of the input. -/
def hid1 (w1 b1 : Fin 32 → EReal) (x : EReal) (g : Fin 32) : EReal :=
  max (x * w1 g + b1 g) (Ideal.ofBits .f32 0x00000000#32)

/-- The second hidden layer at unit `k`: the rectified affine combination of the first layer's units. -/
def hid2 (w1 b1 : Fin 32 → EReal) (w2 : Fin 32 → Fin 32 → EReal) (b2 : Fin 32 → EReal) (x : EReal) (k : Fin 32) : EReal :=
  max ((∑ g : Fin 32, hid1 w1 b1 x g * w2 g k) + b2 k) (Ideal.ofBits .f32 0x00000000#32)

/-- The score of one number: the logistic function of the affine combination of the second layer's units. -/
def score (w1 b1 : Fin 32 → EReal) (w2 : Fin 32 → Fin 32 → EReal) (b2 w3 : Fin 32 → EReal) (b3 : EReal) (x : EReal) : EReal :=
  Ideal.logistic ((∑ k : Fin 32, hid2 w1 b1 w2 b2 x k * w3 k) + b3)

/-- The off-diagonal indicator as a number: one off the diagonal, zero on it. -/
def offdiag (r c : Nat) : EReal := if r = c then 0 else 1

/-- The kernel's entry: half the sum of the two scores, times the two node masks, times the off-diagonal indicator. -/
def cell (a b mr mc od : EReal) : EReal :=
  Ideal.ofBits .f32 0x3F000000#32 * (a + b) * (mr * mc) * od

/-- The reference's selection: the score where both nodes are valid, zero elsewhere. -/
def gate (m1 m2 : BitVec 1) (s : EReal) : EReal :=
  if m1 &&& m2 = 1#1 then s else Ideal.ofBits .f32 0x00000000#32

/-- The reference's entry: half the sum of the selected score and of its mirror image's, times one minus the
    identity matrix's entry. -/
def refcell (a b : EReal) (mr mc : BitVec 1) (r c : Nat) : EReal :=
  Ideal.ofBits .f32 0x3F000000#32 * (gate mr mc a + gate mc mr b) * (1 - (if r = c then (1 : EReal) else 0))

end Cert.Spec

end
-- ==== Proof.KernelValue.lean ====
import proofs.«134683_j58007828300453_1_alg».proof.Proof.OutIdeal
import proofs.«134683_j58007828300453_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! The output block the body leaves, read at one entry, on the extended reals. -/

set_option maxRecDepth 16384

noncomputable section

namespace Cert.KernelIdeal.Hand

open Idealize.ShloMosaic Idealize.ShloMosaic.TcCoe Idealize.ShloMosaic.ValueIdx Idealize.ShloMosaic.Tactic
open Idealize.SL.Sem
open Cert.KernelIdeal Cert.KernelIdeal.Gen

section Defs
variable {F : FTy → Type} [FloatOps F]

/-- Column `k` of the second weight matrix is a legal slice. -/
theorem colSlices : ∀ k : Fin 32, S32x32.Slices ![0, k.val] S32x1 := by decide
/-- Entry `k` of the second bias is a legal slice. -/
theorem biasSlices : ∀ k : Fin 32, S32.Slices ![k.val] S1 := by decide

/-- The first hidden layer as a block: entry `(p, g, q)` is the rectified affine map of entry `(p, q)` of the input
    with the weight and bias of unit `g`. -/
def hidV (x : FVec F S256x256 .f32) (w1 : FVec F S32 .f32) (b1 : Vec F S32 .f32) : FVec F S256x32x256 .f32 :=
  maximumf
    (addf
      (mulf (broadcastTo S256x32x256 (shapeCast S256x1x256 x shapeCasts_S256x256_S256x1x256) broadcasts_S256x1x256_S256x32x256)
        (broadcastTo S256x32x256 (shapeCast S1x32x1 w1 shapeCasts_S32_S1x32x1) broadcasts_S1x32x1_S256x32x256))
      (broadcastTo S256x32x256 (shapeCast S1x32x1 b1 shapeCasts_S32_S1x32x1) broadcasts_S1x32x1_S256x32x256))
    (broadcast S256x32x256 (Scalar.ofBits .f32 0x00000000#32))

/-- The weighted sum over the middle axis of a block `h` with the weights `w`. -/
def dotV (h : FVec F S256x32x256 .f32) (w : FVec F S32x1 .f32) : FVec F S256x256 .f32 :=
  multiReduction .add [1] S256x256
    (mulf h (broadcastTo S256x32x256 (shapeCast S1x32x1 (shapeCast S32 w shapeCasts_S32x1_S32) shapeCasts_S32_S1x32x1) broadcasts_S1x32x1_S256x32x256))
    0x00000000#32 reduces_S256x32x256_S256x256 (.inl rfl) rfl

/-- Unit `k` of the second layer before rectification: the weighted sum of the first layer with column `k` of the
    weights, plus entry `k` of the bias. -/
def colV (k : Fin 32) (v8 : Vec F S32x32 .f32) (v9 : Vec F S32 .f32) (h : FVec F S256x32x256 .f32) : FVec F S256x256 .f32 :=
  addf (dotV h (extractStridedSlice S32x1 ![0, k.val] v8 (colSlices k)))
    (broadcast S256x256 (extractAt ![0] (extractStridedSlice S1 ![k.val] v9 (biasSlices k)) inpos_S1_p0))

/-- A unit piece of the stacked second layer. -/
def pieceV (v : FVec F S256x256 .f32) : FVec F S256x1x256 .f32 := shapeCast S256x1x256 v shapeCasts_S256x256_S256x1x256

/-- Thirty-two unit pieces stack to the full block along the middle axis. -/
theorem catOk (pc : Fin 32 → FVec F S256x1x256 .f32) :
    Shape.Concatenates ((List.ofFn fun k : Fin 32 => (⟨S256x1x256, pc k⟩ : (s : Shape) × (s.Idx → F .f32))).map (·.1)) S256x32x256 1 :=
  concatenates_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x1x256_S256x32x256_d1

/-- The rectified second layer: the thirty-two unit pieces stacked along the middle axis, then rectified. -/
def lay2V (pc : Fin 32 → FVec F S256x1x256 .f32) : FVec F S256x32x256 .f32 :=
  maximumf
    (concatenate S256x32x256 1 (List.ofFn fun k : Fin 32 => (⟨S256x1x256, pc k⟩ : (s : Shape) × (s.Idx → F .f32))) (catOk pc))
    (broadcast S256x32x256 (Scalar.ofBits .f32 0x00000000#32))

/-- The output unit: the logistic function of the weighted sum of the second layer plus the last bias. -/
def headV (h2 : FVec F S256x32x256 .f32) (w3 : FVec F S32x1 .f32) (b3 : F .f32) : FVec F S256x256 .f32 :=
  logistic (addf (dotV h2 w3) (broadcast S256x256 b3))

end Defs

section Layout
variable {α : Type}

/-- A `[256, 1, 256]` block broadcast along its middle axis reads, at `(p, g, q)`, the block at `(p, 0, q)`. -/
theorem bc_mid (v : S256x1x256.Idx → α) (h : S256x1x256.Broadcasts S256x32x256) (p : Fin 256) (g : Fin 32) (q : Fin 256) :
    broadcastTo S256x32x256 v h (ix3 p g q) = v (ix3 p (0 : Fin 1) q) :=
  broadcastTo_apply v h (ix3 p g q) (ix3 p (0 : Fin 1) q) fun a => by
    match a with
    | ⟨0, _⟩ => rfl
    | ⟨1, _⟩ => rfl
    | ⟨2, _⟩ => rfl

/-- A `[1, 32, 1]` block broadcast along its outer axes reads, at `(p, g, q)`, the block at `(0, g, 0)`. -/
theorem bc_outer (v : S1x32x1.Idx → α) (h : S1x32x1.Broadcasts S256x32x256) (p : Fin 256) (g : Fin 32) (q : Fin 256) :
    broadcastTo S256x32x256 v h (ix3 p g q) = v (ix3 (0 : Fin 1) g (0 : Fin 1)) :=
  broadcastTo_apply v h (ix3 p g q) (ix3 (0 : Fin 1) g (0 : Fin 1)) fun a => by
    match a with
    | ⟨0, _⟩ => rfl
    | ⟨1, _⟩ => rfl
    | ⟨2, _⟩ => rfl

/-- A matrix cast to `[256, 1, 256]` reads, at `(p, u, q)`, the matrix at `(p, q)`. -/
theorem sc_mid (x : S256x256.Idx → α) (h : S256x256.ShapeCasts S256x1x256) (p : Fin 256) (u : Fin 1) (q : Fin 256) :
    shapeCast S256x1x256 x h (ix3 p u q) = x (ix2 p q) :=
  shapeCast_apply x h _ _ (by
    have hu : u.val = 0 := by omega
    rw [Shape.rowMajor_val_three, Shape.rowMajor_val_two]
    show p.val * 256 + q.val = (p.val * 1 + u.val) * 256 + q.val
    rw [hu]; omega)

/-- A vector of 32 cast to `[1, 32, 1]` reads, at `(u, g, u')`, the vector at `g`. -/
theorem sc_vec (w : S32.Idx → α) (h : S32.ShapeCasts S1x32x1) (u : Fin 1) (g : Fin 32) (u' : Fin 1) :
    shapeCast S1x32x1 w h (ix3 u g u') = w (ix1 g) :=
  shapeCast_apply w h _ _ (by
    have hu : u.val = 0 := by omega
    have hu' : u'.val = 0 := by omega
    rw [Shape.rowMajor_val_three, Shape.rowMajor_val_one]
    show g.val = (u.val * 32 + g.val) * 1 + u'.val
    rw [hu, hu']; omega)

/-- A `[32, 1]` column cast to a vector reads, at `g`, the column at `(g, 0)`. -/
theorem sc_col (w : S32x1.Idx → α) (h : S32x1.ShapeCasts S32) (g : Fin 32) :
    shapeCast S32 w h (ix1 g) = w (ix2 g (0 : Fin 1)) :=
  shapeCast_apply w h _ _ (by
    rw [Shape.rowMajor_val_two, Shape.rowMajor_val_one]
    show g.val * 1 + 0 = g.val
    omega)

/-- A `[1, 32]` row cast to a vector reads, at `g`, the row at `(0, g)`. -/
theorem sc_row (w : S1x32.Idx → α) (h : S1x32.ShapeCasts S32) (g : Fin 32) :
    shapeCast S32 w h (ix1 g) = w (ix2 (0 : Fin 1) g) :=
  shapeCast_1a_a_apply w h g

end Layout

section AtIdeal

/-- The index the sum over the middle axis reads: the coordinate `g` inserted between `p` and `q`. -/
theorem lift_mid (h : S256x32x256.Reduces [1] S256x256) (p q : Fin 256) (g : Fin 32) :
    h.lift (ix2 p q) g = ix3 p g q := by
  funext a
  match a with
  | ⟨0, _⟩ => exact Fin.ext rfl
  | ⟨1, _⟩ => exact Fin.ext rfl
  | ⟨2, _⟩ => exact Fin.ext rfl

/-- The first hidden layer at an entry. -/
theorem hidV_apply (x : FVec Ideal S256x256 .f32) (w1 : FVec Ideal S32 .f32) (b1 : Vec Ideal S32 .f32) (p : Fin 256) (g : Fin 32) (q : Fin 256) :
    hidV x w1 b1 (ix3 p g q) = max (x (ix2 p q) * w1 (ix1 g) + b1 (ix1 g)) (Ideal.ofBits .f32 0x00000000#32) := by
  unfold hidV
  rw [maximumf_apply, addf_apply, mulf_apply, broadcast_apply, bc_mid, bc_outer, bc_outer, sc_mid, sc_vec, sc_vec]
  rfl

/-- The weighted sum over the middle axis at an entry. -/
theorem dotV_apply (h : FVec Ideal S256x32x256 .f32) (w : FVec Ideal S32x1 .f32) (p q : Fin 256) :
    dotV h w (ix2 p q) = ∑ g : Fin 32, h (ix3 p g q) * w (ix2 g (0 : Fin 1)) := by
  unfold dotV
  refine (Ideal.multiReduction_add_single _ _ reduces_S256x32x256_S256x256 _ _ (ix2 p q)).trans ?_
  refine Finset.sum_congr rfl fun (g : Fin 32) _ => ?_
  rw [lift_mid _ p q g, mulf_apply, bc_outer, sc_vec, sc_col]

/-- Unit `k` of the second layer before rectification, at an entry. -/
theorem colV_apply (k : Fin 32) (v8 : Vec Ideal S32x32 .f32) (v9 : Vec Ideal S32 .f32) (h : FVec Ideal S256x32x256 .f32) (p q : Fin 256) :
    colV k v8 v9 h (ix2 p q) = (∑ g : Fin 32, h (ix3 p g q) * v8 (ix2 g k)) + v9 (ix1 k) := by
  unfold colV
  rw [addf_apply, dotV_apply, broadcast_apply]
  congr 1
  · refine Finset.sum_congr rfl fun g _ => ?_
    rw [slice2_axis1_apply k.val v8 (colSlices k) g (0 : Fin 1) k (by simp)]
  · unfold extractAt
    exact extractStridedSlice_apply _ v9 (biasSlices k) _ (ix1 k) fun a => by
      match a with
      | ⟨0, _⟩ => show k.val = k.val + 0; rfl

/-- The rectified second layer at an entry: the piece the middle coordinate names, rectified. -/
theorem lay2V_apply (pc : Fin 32 → FVec Ideal S256x1x256 .f32) (p : Fin 256) (k : Fin 32) (q : Fin 256) :
    lay2V pc (ix3 p k q) = max (pc k (ix3 p (0 : Fin 1) q)) (Ideal.ofBits .f32 0x00000000#32) := by
  unfold lay2V
  rw [maximumf_apply, broadcast_apply]
  congr 1
  exact concatenate_ofFn_unit_apply (t := S256x32x256) (s₁ := S256x1x256) 1 pc (catOk pc) rfl rfl (ix3 p k q) k rfl
    (ix3 p (0 : Fin 1) q) fun b hb => by
      match b with
      | ⟨0, _⟩ => rfl
      | ⟨1, _⟩ => exact absurd rfl hb
      | ⟨2, _⟩ => rfl

/-- The output unit at an entry. -/
theorem headV_apply (h2 : FVec Ideal S256x32x256 .f32) (w3 : FVec Ideal S32x1 .f32) (b3 : Ideal .f32) (p q : Fin 256) :
    headV h2 w3 b3 (ix2 p q) = Ideal.logistic ((∑ k : Fin 32, h2 (ix3 p k q) * w3 (ix2 k (0 : Fin 1))) + b3) := by
  unfold headV
  show Ideal.logistic (addf (dotV h2 w3) (broadcast S256x256 b3) (ix2 p q)) = _
  rw [addf_apply, dotV_apply, broadcast_apply]

end AtIdeal

section Final
variable {F : FTy → Type} [FloatOps F]

/-- The product of the row mask (down the rows) and the column mask (along the columns). -/
def maskV (v759 v763 : Vec F S1x1x256 .f32) : FVec F S256x256 .f32 :=
  mulf
    (broadcastTo S256x256 (shapeCast S256x1 (shapeCast S256 (shapeCast S1x1x256 v759 shapeCasts_S1x1x256_S1x1x256) shapeCasts_S1x1x256_S256) shapeCasts_S256_S256x1) broadcasts_S256x1_S256x256)
    (broadcastTo S256x256 (shapeCast S1x256 (shapeCast S256 (shapeCast S1x1x256 v763 shapeCasts_S1x1x256_S1x1x256) shapeCasts_S1x1x256_S256) shapeCasts_S256_S1x256) broadcasts_S1x256_S256x256)

/-- The off-diagonal indicator of the tile at block position `(a1, a2)`, as numbers. -/
def offV (a1 a2 : BitVec 32) : FVec F S256x256 .f32 :=
  sitofp .f32
    (extui 32
      (cmpi .ne
        (addi (broadcast S256x256 (Scalar.muli a1 256#32)) (iota .tc S256x256 32 [0] iota_S256x256_d0_w32))
        (addi (broadcast S256x256 (Scalar.muli a2 256#32)) (iota .tc S256x256 32 [1] iota_S256x256_d1_w32)))
      natLt_1_32)

/-- The stored tile: half the sum of the two score tiles, masked, off the diagonal. -/
def finV (a1 a2 : BitVec 32) (sA sB : FVec F S256x256 .f32) (v759 v763 : Vec F S1x1x256 .f32) : FVec F S256x256 .f32 :=
  mulf (mulf (mulf (broadcast S256x256 (Scalar.ofBits .f32 0x3F000000#32)) (addf sA sB)) (maskV v759 v763)) (offV a1 a2)

/-- The whole perceptron on a tile of inputs. -/
def mlpV (x : FVec F S256x256 .f32) (w1 : FVec F S32 .f32) (b1 : Vec F S32 .f32) (w2 : Vec F S32x32 .f32) (b2 : Vec F S32 .f32)
    (w3 : Vec F S32x1 .f32) (b3 : F .f32) : FVec F S256x256 .f32 :=
  headV (lay2V fun k => pieceV (colV k w2 b2 (hidV x w1 b1))) w3 b3

end Final

section FinalAtIdeal

/-- The mask product at an entry. -/
theorem maskV_apply (v759 v763 : Vec Ideal S1x1x256 .f32) (p q : Fin 256) :
    maskV v759 v763 (ix2 p q) = v759 (ix3 (0 : Fin 1) (0 : Fin 1) p) * v763 (ix3 (0 : Fin 1) (0 : Fin 1) q) := by
  unfold maskV
  rw [mulf_apply]
  congr 1
  · refine (broadcastTo_apply _ broadcasts_S256x1_S256x256 (ix2 p q) (ix2 p (0 : Fin 1)) fun a => by
      match a with
      | ⟨0, _⟩ => rfl
      | ⟨1, _⟩ => rfl).trans ?_
    refine (shapeCast_apply _ shapeCasts_S256_S256x1 (ix2 p (0 : Fin 1)) (ix1 p) (by
      rw [Shape.rowMajor_val_two, Shape.rowMajor_val_one]; show p.val = p.val * 1 + 0; omega)).trans ?_
    refine (shapeCast_apply _ shapeCasts_S1x1x256_S256 (ix1 p) (ix3 (0 : Fin 1) (0 : Fin 1) p) (by
      rw [Shape.rowMajor_val_three, Shape.rowMajor_val_one]; show (0 * 1 + 0) * 256 + p.val = p.val; omega)).trans ?_
    rw [shapeCast_self]
  · refine (broadcastTo_apply _ broadcasts_S1x256_S256x256 (ix2 p q) (ix2 (0 : Fin 1) q) fun a => by
      match a with
      | ⟨0, _⟩ => rfl
      | ⟨1, _⟩ => rfl).trans ?_
    refine (shapeCast_apply _ shapeCasts_S256_S1x256 (ix2 (0 : Fin 1) q) (ix1 q) (by
      rw [Shape.rowMajor_val_two, Shape.rowMajor_val_one]; show q.val = 0 * 256 + q.val; omega)).trans ?_
    refine (shapeCast_apply _ shapeCasts_S1x1x256_S256 (ix1 q) (ix3 (0 : Fin 1) (0 : Fin 1) q) (by
      rw [Shape.rowMajor_val_three, Shape.rowMajor_val_one]; show (0 * 1 + 0) * 256 + q.val = q.val; omega)).trans ?_
    rw [shapeCast_self]

/-- Two words below `2 ^ 32` differ exactly when the numbers do; widened and read as a number the comparison is the
    off-diagonal indicator. -/
theorem offWord (r c : Nat) (hr : r < 2 ^ 32) (hc : c < 2 ^ 32) :
    ((((IntOp.cmpi .ne (BitVec.ofNat 32 r) (BitVec.ofNat 32 c)).setWidth 32).toInt : ℝ) : EReal) = Cert.Spec.offdiag r c := by
  unfold Cert.Spec.offdiag
  by_cases h : r = c
  · subst h
    rw [if_pos rfl]
    have : IntOp.cmpi .ne (BitVec.ofNat 32 r) (BitVec.ofNat 32 r) = 0#1 := by simp [IntOp.cmpi]
    rw [this]
    simp
  · rw [if_neg h]
    have hne : BitVec.ofNat 32 r ≠ BitVec.ofNat 32 c := fun e => h (by
      have := congrArg BitVec.toNat e
      rw [BitVec.toNat_ofNat, BitVec.toNat_ofNat, Nat.mod_eq_of_lt hr, Nat.mod_eq_of_lt hc] at this
      exact this)
    have : IntOp.cmpi .ne (BitVec.ofNat 32 r) (BitVec.ofNat 32 c) = 1#1 := by
      show BitVec.ofBool (BitVec.ofNat 32 r != BitVec.ofNat 32 c) = 1#1
      rw [bne_iff_ne.mpr hne]
      rfl
    rw [this]
    simp

/-- The off-diagonal indicator tile at an entry, for block positions below four. -/
theorem offV_apply (n1 n2 : Nat) (h1 : n1 < 4) (h2 : n2 < 4) (p q : Fin 256) :
    offV (F := Ideal) (BitVec.ofNat 32 n1) (BitVec.ofNat 32 n2) (ix2 p q) = Cert.Spec.offdiag (n1 * 256 + p.val) (n2 * 256 + q.val) := by
  unfold offV
  rw [sitofp_apply, extui_apply]
  show (((((IntOp.cmpi .ne
      (IntOp.addi (Scalar.muli (BitVec.ofNat 32 n1) 256#32) (iota .tc S256x256 32 [0] iota_S256x256_d0_w32 (ix2 p q)))
      (IntOp.addi (Scalar.muli (BitVec.ofNat 32 n2) 256#32) (iota .tc S256x256 32 [1] iota_S256x256_d1_w32 (ix2 p q)))).setWidth 32).toInt : ℝ)) : EReal) = _
  rw [iota_single_apply, iota_single_apply]
  have e1 : IntOp.addi (Scalar.muli (BitVec.ofNat 32 n1) 256#32) (BitVec.ofNat 32 ((ix2 p q : S256x256.Idx) 0).val) = BitVec.ofNat 32 (n1 * 256 + p.val) := by
    show BitVec.ofNat 32 n1 * BitVec.ofNat 32 256 + BitVec.ofNat 32 p.val = _
    rw [← BitVec.ofNat_mul, ← BitVec.ofNat_add]
  have e2 : IntOp.addi (Scalar.muli (BitVec.ofNat 32 n2) 256#32) (BitVec.ofNat 32 ((ix2 p q : S256x256.Idx) 1).val) = BitVec.ofNat 32 (n2 * 256 + q.val) := by
    show BitVec.ofNat 32 n2 * BitVec.ofNat 32 256 + BitVec.ofNat 32 q.val = _
    rw [← BitVec.ofNat_mul, ← BitVec.ofNat_add]
  rw [e1, e2]
  exact offWord _ _ (by omega) (by omega)

/-- The stored tile at an entry. -/
theorem finV_apply (n1 n2 : Nat) (h1 : n1 < 4) (h2 : n2 < 4) (sA sB : FVec Ideal S256x256 .f32) (v759 v763 : Vec Ideal S1x1x256 .f32) (p q : Fin 256) :
    finV (BitVec.ofNat 32 n1) (BitVec.ofNat 32 n2) sA sB v759 v763 (ix2 p q)
      = Cert.Spec.cell (sA (ix2 p q)) (sB (ix2 p q)) (v759 (ix3 (0 : Fin 1) (0 : Fin 1) p)) (v763 (ix3 (0 : Fin 1) (0 : Fin 1) q))
          (Cert.Spec.offdiag (n1 * 256 + p.val) (n2 * 256 + q.val)) := by
  unfold finV Cert.Spec.cell
  rw [mulf_apply, mulf_apply, mulf_apply, addf_apply, broadcast_apply, maskV_apply, offV_apply n1 n2 h1 h2]
  rfl

/-- The whole perceptron at an entry is the score of that entry. -/
theorem mlpV_apply (x : FVec Ideal S256x256 .f32) (w1 : FVec Ideal S32 .f32) (b1 : Vec Ideal S32 .f32) (w2 : Vec Ideal S32x32 .f32)
    (b2 : Vec Ideal S32 .f32) (w3 : Vec Ideal S32x1 .f32) (b3 : Ideal .f32) (p q : Fin 256) :
    mlpV x w1 b1 w2 b2 w3 b3 (ix2 p q)
      = Cert.Spec.score (fun g => w1 (ix1 g)) (fun g => b1 (ix1 g)) (fun g k => w2 (ix2 g k)) (fun k => b2 (ix1 k))
          (fun k => w3 (ix2 k (0 : Fin 1))) b3 (x (ix2 p q)) := by
  unfold mlpV Cert.Spec.score
  rw [headV_apply]
  refine congrArg Ideal.logistic (congrArg (· + b3) (Finset.sum_congr rfl fun k _ => ?_))
  rw [lay2V_apply]
  unfold pieceV Cert.Spec.hid2
  rw [sc_mid, colV_apply]
  refine congrArg (· * w3 (ix2 k (0 : Fin 1))) (congrArg (max · _) (congrArg (· + b2 (ix1 k)) (Finset.sum_congr rfl fun g _ => ?_)))
  rw [hidV_apply]
  rfl

end FinalAtIdeal

/-- Entry `(p, q)` of the output block: half the sum of the score of entry `(p, q)` of the first input block and the
    score of entry `(q, p)` of the second, times the row mask at `p`, the column mask at `q`, and the off-diagonal
    indicator of the entry's position in the whole matrix. -/
theorem outv_apply (c : Dev nD) (i : grid0.Coords) (arg3 : Memref sig .tc .vmem S1x256x256 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x32 .f32) (harg7 : arg7.IsWhole) (arg8 : Memref sig .tc .vmem S32 .f32) (harg8 : arg8.IsWhole) (arg9 : Memref sig .tc .vmem S32x32 .f32) (harg9 : arg9.IsWhole) (arg10 : Memref sig .tc .vmem S32 .f32) (harg10 : arg10.IsWhole) (arg11 : Memref sig .tc .vmem S32x1 .f32) (harg11 : arg11.IsWhole) (arg12 : Memref sig .tc .vmem S1 .f32) (harg12 : arg12.IsWhole) (arg13 : Memref sig .tc .vmem S1x256x256 .f32) (harg13 : arg13.IsWhole)
    (x0 : Vec Ideal S1x256x256 .f32) (x1 : Vec Ideal S1x256x256 .f32) (x2 : Vec Ideal S1x1x256 .f32) (x3 : Vec Ideal S1x1x256 .f32) (x4 : Vec Ideal S1x32 .f32) (x5 : Vec Ideal S32 .f32) (x6 : Vec Ideal S32x32 .f32) (x7 : Vec Ideal S32 .f32) (x8 : Vec Ideal S32x1 .f32) (x9 : Vec Ideal S1 .f32) (p q : Fin 256) :
    outv (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 (ix3 (0 : Fin 1) p q)
      = Cert.Spec.cell (Cert.Spec.score (fun g => x4 (ix2 (0 : Fin 1) g)) (fun g => x5 (ix1 g)) (fun g k => x6 (ix2 g k)) (fun k => x7 (ix1 k)) (fun k => x8 (ix2 k (0 : Fin 1))) (x9 (ix1 (0 : Fin 1))) (x0 (ix3 (0 : Fin 1) p q)))
          (Cert.Spec.score (fun g => x4 (ix2 (0 : Fin 1) g)) (fun g => x5 (ix1 g)) (fun g k => x6 (ix2 g k)) (fun k => x7 (ix1 k)) (fun k => x8 (ix2 k (0 : Fin 1))) (x9 (ix1 (0 : Fin 1))) (x1 (ix3 (0 : Fin 1) q p)))
          (x2 (ix3 (0 : Fin 1) (0 : Fin 1) p)) (x3 (ix3 (0 : Fin 1) (0 : Fin 1) q))
          (Cert.Spec.offdiag ((i 1).val * 256 + p.val) ((i 2).val * 256 + q.val)) := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  unfold outv
  rw [View.read_writes_eq_canon _ _ _ (cover c i arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun
  dsimp only
  sl_unfold_words
  rw [View.canon_unit_zero hz3]
  simp only [View.readAt_eq_ld, harg3.read_unread, harg4.read_unread, harg5.read_unread, harg6.read_unread, harg7.read_unread,
    harg8.read_unread, harg9.read_unread, harg10.read_unread, harg11.read_unread, harg12.read_unread,
    View.ld_unit_zero (S := S1x256x256) hz3, View.ld_unit_zero (S := S1x1x256) hz3, View.ld_unit_zero (S := S1x32) hz2,
    View.ld_unit_zero (S := S32x32) hz2, View.ld_unit_zero (S := S32x1) hz2, View.ld_unit_zero (S := S32) hz1,
    View.ld_unit_zero (S := S1) hz1]
  show shapeCast S1x256x256 (finV (BitVec.ofNat 32 (i 1).val) (BitVec.ofNat 32 (i 2).val)
      (mlpV (shapeCast S256x256 x0 shapeCasts_S1x256x256_S256x256) (shapeCast S32 x4 shapeCasts_S1x32_S32) x5 x6 x7 x8 (extractAt ![0] x9 inpos_S1_p0))
      (mlpV (transpose S256x256 [1, 0] (shapeCast S256x256 x1 shapeCasts_S1x256x256_S256x256) transposes_S256x256_p1_0_S256x256)
        (shapeCast S32 x4 shapeCasts_S1x32_S32) x5 x6 x7 x8 (extractAt ![0] x9 inpos_S1_p0))
      x2 x3) shapeCasts_S256x256_S1x256x256 (ix3 (0 : Fin 1) p q) = _
  have hw1 : (fun g : Fin 32 => shapeCast S32 x4 shapeCasts_S1x32_S32 (ix1 g)) = fun g => x4 (ix2 (0 : Fin 1) g) :=
    funext fun g => sc_row x4 _ g
  have hb3 : extractAt ![0] x9 inpos_S1_p0 = x9 (ix1 (0 : Fin 1)) := by
    unfold extractAt
    refine congrArg x9 (funext fun a => ?_)
    match a with
    | ⟨0, _⟩ => rfl
  rw [shapeCast_ab_1ab_apply, finV_apply _ _ (i 1).isLt (i 2).isLt, mlpV_apply, mlpV_apply, transpose_ix2_apply,
    shapeCast_1ab_ab_apply, shapeCast_1ab_ab_apply, hw1, hb3]

end Cert.KernelIdeal.Hand

end
-- ==== Proof.FinalIdeal.lean ====
import proofs.«134683_j58007828300453_1_alg».proof.Proof.FrameIdeal
import proofs.«134683_j58007828300453_1_alg».proof.Proof.KernelValue
import proofs.«134683_j58007828300453_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

/-! From the blocks the grid points write back to the whole output array, on the extended reals. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The whole output array as one function of the argument arrays: entry `(b, r, c)` is half the sum of the scores of
    `sim[b, r, c]` and `sim[b, c, r]`, times the two node masks as numbers, times the off-diagonal indicator. -/
def Gk (A0 : FVec Ideal S8x1024x1024 .f32) (A1 : IVec S8x1024 1) (A2 : FVec Ideal S1x32 .f32) (A3 : FVec Ideal S32 .f32)
    (A4 : FVec Ideal S32x32 .f32) (A5 : FVec Ideal S32 .f32) (A6 : FVec Ideal S32x1 .f32) (A7 : FVec Ideal S1 .f32) :
    FVec Ideal S8x1024x1024 .f32 := fun j =>
  Cert.Spec.cell (Cert.Spec.score (fun g => A2 (ix2 (0 : Fin 1) g)) (fun g => A3 (ix1 g)) (fun g k => A4 (ix2 g k)) (fun k => A5 (ix1 k)) (fun k => A6 (ix2 k (0 : Fin 1))) (A7 (ix1 (0 : Fin 1))) (A0 (ix3 (j 0) (j 1) (j 2))))
    (Cert.Spec.score (fun g => A2 (ix2 (0 : Fin 1) g)) (fun g => A3 (ix1 g)) (fun g k => A4 (ix2 g k)) (fun k => A5 (ix1 k)) (fun k => A6 (ix2 k (0 : Fin 1))) (A7 (ix1 (0 : Fin 1))) (A0 (ix3 (j 0) (j 2) (j 1))))
    (FloatOps.uitofp (F := Ideal) .f32 (A1 (ix2 (j 0) (j 1)))) (FloatOps.uitofp (F := Ideal) .f32 (A1 (ix2 (j 0) (j 2))))
    (Cert.Spec.offdiag (j 1).val (j 2).val)

variable (m : (ℓ : Loc nD τ sig) → Buf (Elt Ideal) ℓ)

/-- The block indices over the grid: at the point with coordinates `(b, i, j)` the output tile and the direct tile of the
    similarity matrix sit at block `(b, i, j)`, the mirrored tile at `(b, j, i)`, the row block of the masks at `(b, 0, i)`,
    the column block at `(b, 0, j)`, and every weight array is its one block. -/
theorem idx_facts : ∀ t : Fin cfg0.N,
    win0_10.index t (0 : Fin 3) = (grid0.coords t 0).val ∧ win0_10.index t (1 : Fin 3) = (grid0.coords t 1).val ∧ win0_10.index t (2 : Fin 3) = (grid0.coords t 2).val
    ∧ win0_0.index t (0 : Fin 3) = (grid0.coords t 0).val ∧ win0_0.index t (1 : Fin 3) = (grid0.coords t 1).val ∧ win0_0.index t (2 : Fin 3) = (grid0.coords t 2).val
    ∧ win0_1.index t (0 : Fin 3) = (grid0.coords t 0).val ∧ win0_1.index t (1 : Fin 3) = (grid0.coords t 2).val ∧ win0_1.index t (2 : Fin 3) = (grid0.coords t 1).val
    ∧ win0_2.index t (0 : Fin 3) = (grid0.coords t 0).val ∧ win0_2.index t (1 : Fin 3) = 0 ∧ win0_2.index t (2 : Fin 3) = (grid0.coords t 1).val
    ∧ win0_3.index t (0 : Fin 3) = (grid0.coords t 0).val ∧ win0_3.index t (1 : Fin 3) = 0 ∧ win0_3.index t (2 : Fin 3) = (grid0.coords t 2).val
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- Every block of the output array is some point's: the point with coordinates `(b, i, j)`. -/
theorem idx_onto : ∀ (q0 : Fin 8) (q1 : Fin 4) (q2 : Fin 4), ∃ t : Fin cfg0.N, win0_10.index t = ![q0.val, q1.val, q2.val] :=
  (by decide +kernel : ∀ (q0 : Fin 8) (q1 : Fin 4) (q2 : Fin 4), ∃ t : Fin grid0.N, win0_10.index t = ![q0.val, q1.val, q2.val])

/-- The direct tile of the similarity matrix at a point, read at an entry. -/
theorem sim_block (c : Dev nD) (t : Fin cfg0.N) (x : S1x256x256.Idx) (k : S8x1024x1024.Idx)
    (h0 : (k 0).val = (grid0.coords t 0).val) (h1 : (k 1).val = (grid0.coords t 1).val * 256 + (x 1).val)
    (h2 : (k 2).val = (grid0.coords t 2).val * 256 + (x 2).val) :
    (iblk m c 0 t : Vec Ideal S1x256x256 .f32) x = (m ((c.tc : Thread nD τ).loc main_arg0) : S8x1024x1024.Idx → EReal) k := by
  obtain ⟨-, -, -, e0, e1, e2, -⟩ := idx_facts t
  have hx0 : (x 0).val < 1 := (x 0).isLt
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 3) * 1 + 1 * (x 0).val = (k 0).val; omega
  | ⟨1, _⟩ => show win0_0.index t (1 : Fin 3) * 256 + 1 * (x 1).val = (k 1).val; omega
  | ⟨2, _⟩ => show win0_0.index t (2 : Fin 3) * 256 + 1 * (x 2).val = (k 2).val; omega

/-- The mirrored tile of the similarity matrix at a point, read at an entry. -/
theorem simT_block (c : Dev nD) (t : Fin cfg0.N) (x : S1x256x256.Idx) (k : S8x1024x1024.Idx)
    (h0 : (k 0).val = (grid0.coords t 0).val) (h1 : (k 1).val = (grid0.coords t 2).val * 256 + (x 1).val)
    (h2 : (k 2).val = (grid0.coords t 1).val * 256 + (x 2).val) :
    (iblk m c 1 t : Vec Ideal S1x256x256 .f32) x = (m ((c.tc : Thread nD τ).loc main_arg0) : S8x1024x1024.Idx → EReal) k := by
  obtain ⟨-, -, -, -, -, -, e0, e1, e2, -⟩ := idx_facts t
  have hx0 : (x 0).val < 1 := (x 0).isLt
  unfold iblk
  rw [View.read_apply]
  show V m c main_arg0 _ = m ((c.tc : Thread nD τ).loc main_arg0) _
  rw [V_main_arg0]
  congr 1
  funext a
  apply Fin.ext
  match a with
  | ⟨0, _⟩ => show win0_1.index t (0 : Fin 3) * 1 + 1 * (x 0).val = (k 0).val; omega
  | ⟨1, _⟩ => show win0_1.index t (1 : Fin 3) * 256 + 1 * (x 1).val = (k 1).val; omega
  | ⟨2, _⟩ => show win0_1.index t (2 : Fin 3) * 256 + 1 * (x 2).val = (k 2).val; omega

/-- What the region finds in the reshaped array: the node masks as numbers, with a unit axis in the middle. -/
theorem V_masks (c : Dev nD) :
    (V m c main_v1 : S8x1x1024.Idx → EReal)
      = shapeCast S8x1x1024 (uitofp (F := Ideal) .f32 (m ((c.tc : Thread nD τ).loc main_arg1))) shapeCasts_S8x1024_S8x1x1024 := by
  dsimp only [V, Gen.hostOps0]; after_results; rfl

/-- Its entry `(b, 0, r)` is the mask of node `r` of batch `b` as a number. -/
theorem V_masks_apply (c : Dev nD) (b : Fin 8) (r : Fin 1024) :
    (V m c main_v1 : S8x1x1024.Idx → EReal) (ix3 b (0 : Fin 1) r)
      = FloatOps.uitofp (F := Ideal) .f32 ((m ((c.tc : Thread nD τ).loc main_arg1) : IVec S8x1024 1) (ix2 b r)) := by
  rw [V_masks]
  exact shapeCast_apply _ shapeCasts_S8x1024_S8x1x1024 (ix3 b (0 : Fin 1) r) (ix2 b r)
    (by rw [Shape.rowMajor_val_two, Shape.rowMajor_val_three]; show b.val * 1024 + r.val = (b.val * 1 + 0) * 1024 + r.val; omega)

/-- The row block of the masks at a point, read at an entry. -/
theorem maskrow_block (c : Dev nD) (t : Fin cfg0.N) (x : S1x1x256.Idx) (b : Fin 8) (r : Fin 1024)
    (h0 : b.val = (grid0.coords t 0).val) (h1 : r.val = (grid0.coords t 1).val * 256 + (x 2).val) :
    (iblk m c 2 t : Vec Ideal S1x1x256 .f32) x
      = FloatOps.uitofp (F := Ideal) .f32 ((m ((c.tc : Thread nD τ).loc main_arg1) : IVec S8x1024 1) (ix2 b r)) := by
  obtain ⟨o0, o1, o2, d0, d1, d2, t0, t1, t2, r0, r1, r2, q0, q1, q2, w40, w41, w50, w60, w61, w70, w80, w81, w90⟩ := idx_facts t
  have hx0 : (x 0).val < 1 := (x 0).isLt
  have hx1 : (x 1).val < 1 := (x 1).isLt
  refine Eq.trans ?_ (V_masks_apply m c b r)
  unfold iblk
  rw [View.read_apply]
  show V m c main_v1 _ = V m c main_v1 _
  congr 1
  funext a
  apply Fin.ext
  match a with
  | ⟨0, _⟩ => show win0_2.index t (0 : Fin 3) * 1 + 1 * (x 0).val = b.val; omega
  | ⟨1, _⟩ => show win0_2.index t (1 : Fin 3) * 1 + 1 * (x 1).val = 0; omega
  | ⟨2, _⟩ => show win0_2.index t (2 : Fin 3) * 256 + 1 * (x 2).val = r.val; omega

/-- The column block of the masks at a point, read at an entry. -/
theorem maskcol_block (c : Dev nD) (t : Fin cfg0.N) (x : S1x1x256.Idx) (b : Fin 8) (r : Fin 1024)
    (h0 : b.val = (grid0.coords t 0).val) (h1 : r.val = (grid0.coords t 2).val * 256 + (x 2).val) :
    (iblk m c 3 t : Vec Ideal S1x1x256 .f32) x
      = FloatOps.uitofp (F := Ideal) .f32 ((m ((c.tc : Thread nD τ).loc main_arg1) : IVec S8x1024 1) (ix2 b r)) := by
  obtain ⟨o0, o1, o2, d0, d1, d2, t0, t1, t2, r0, r1, r2, q0, q1, q2, w40, w41, w50, w60, w61, w70, w80, w81, w90⟩ := idx_facts t
  have hx0 : (x 0).val < 1 := (x 0).isLt
  have hx1 : (x 1).val < 1 := (x 1).isLt
  refine Eq.trans ?_ (V_masks_apply m c b r)
  unfold iblk
  rw [View.read_apply]
  show V m c main_v1 _ = V m c main_v1 _
  congr 1
  funext a
  apply Fin.ext
  match a with
  | ⟨0, _⟩ => show win0_3.index t (0 : Fin 3) * 1 + 1 * (x 0).val = b.val; omega
  | ⟨1, _⟩ => show win0_3.index t (1 : Fin 3) * 1 + 1 * (x 1).val = 0; omega
  | ⟨2, _⟩ => show win0_3.index t (2 : Fin 3) * 256 + 1 * (x 2).val = r.val; omega

/-- The first layer's weights at a point: the whole array. -/
theorem w1_block (c : Dev nD) (t : Fin cfg0.N) :
    (iblk m c 4 t : Vec Ideal S1x32 .f32) = m ((c.tc : Thread nD τ).loc main_arg2) := by
  obtain ⟨o0, o1, o2, d0, d1, d2, t0, t1, t2, r0, r1, r2, q0, q1, q2, w40, w41, w50, w60, w61, w70, w80, w81, w90⟩ := idx_facts t
  funext x
  unfold iblk
  rw [View.read_apply]
  show V m c main_arg2 _ = m ((c.tc : Thread nD τ).loc main_arg2) x
  rw [V_main_arg2]
  congr 1
  funext a
  apply Fin.ext
  match a with
  | ⟨0, _⟩ => show win0_4.index t (0 : Fin 2) * 1 + 1 * (x 0).val = (x 0).val; omega
  | ⟨1, _⟩ => show win0_4.index t (1 : Fin 2) * 32 + 1 * (x 1).val = (x 1).val; omega

/-- The first layer's offsets at a point: the whole array. -/
theorem b1_block (c : Dev nD) (t : Fin cfg0.N) :
    (iblk m c 5 t : Vec Ideal S32 .f32) = m ((c.tc : Thread nD τ).loc main_arg3) := by
  obtain ⟨o0, o1, o2, d0, d1, d2, t0, t1, t2, r0, r1, r2, q0, q1, q2, w40, w41, w50, w60, w61, w70, w80, w81, w90⟩ := idx_facts t
  funext x
  unfold iblk
  rw [View.read_apply]
  show V m c main_arg3 _ = m ((c.tc : Thread nD τ).loc main_arg3) x
  rw [V_main_arg3]
  congr 1
  funext a
  apply Fin.ext
  match a with
  | ⟨0, _⟩ => show win0_5.index t (0 : Fin 1) * 32 + 1 * (x 0).val = (x 0).val; omega

/-- The second layer's weights at a point: the whole array. -/
theorem w2_block (c : Dev nD) (t : Fin cfg0.N) :
    (iblk m c 6 t : Vec Ideal S32x32 .f32) = m ((c.tc : Thread nD τ).loc main_arg4) := by
  obtain ⟨o0, o1, o2, d0, d1, d2, t0, t1, t2, r0, r1, r2, q0, q1, q2, w40, w41, w50, w60, w61, w70, w80, w81, w90⟩ := idx_facts t
  funext x
  unfold iblk
  rw [View.read_apply]
  show V m c main_arg4 _ = m ((c.tc : Thread nD τ).loc main_arg4) x
  rw [V_main_arg4]
  congr 1
  funext a
  apply Fin.ext
  match a with
  | ⟨0, _⟩ => show win0_6.index t (0 : Fin 2) * 32 + 1 * (x 0).val = (x 0).val; omega
  | ⟨1, _⟩ => show win0_6.index t (1 : Fin 2) * 32 + 1 * (x 1).val = (x 1).val; omega

/-- The second layer's offsets at a point: the whole array. -/
theorem b2_block (c : Dev nD) (t : Fin cfg0.N) :
    (iblk m c 7 t : Vec Ideal S32 .f32) = m ((c.tc : Thread nD τ).loc main_arg5) := by
  obtain ⟨o0, o1, o2, d0, d1, d2, t0, t1, t2, r0, r1, r2, q0, q1, q2, w40, w41, w50, w60, w61, w70, w80, w81, w90⟩ := idx_facts t
  funext x
  unfold iblk
  rw [View.read_apply]
  show V m c main_arg5 _ = m ((c.tc : Thread nD τ).loc main_arg5) x
  rw [V_main_arg5]
  congr 1
  funext a
  apply Fin.ext
  match a with
  | ⟨0, _⟩ => show win0_7.index t (0 : Fin 1) * 32 + 1 * (x 0).val = (x 0).val; omega

/-- The third layer's weights at a point: the whole array. -/
theorem w3_block (c : Dev nD) (t : Fin cfg0.N) :
    (iblk m c 8 t : Vec Ideal S32x1 .f32) = m ((c.tc : Thread nD τ).loc main_arg6) := by
  obtain ⟨o0, o1, o2, d0, d1, d2, t0, t1, t2, r0, r1, r2, q0, q1, q2, w40, w41, w50, w60, w61, w70, w80, w81, w90⟩ := idx_facts t
  funext x
  unfold iblk
  rw [View.read_apply]
  show V m c main_arg6 _ = m ((c.tc : Thread nD τ).loc main_arg6) x
  rw [V_main_arg6]
  congr 1
  funext a
  apply Fin.ext
  match a with
  | ⟨0, _⟩ => show win0_8.index t (0 : Fin 2) * 32 + 1 * (x 0).val = (x 0).val; omega
  | ⟨1, _⟩ => show win0_8.index t (1 : Fin 2) * 1 + 1 * (x 1).val = (x 1).val; omega

/-- The third layer's offset at a point: the whole array. -/
theorem b3_block (c : Dev nD) (t : Fin cfg0.N) :
    (iblk m c 9 t : Vec Ideal S1 .f32) = m ((c.tc : Thread nD τ).loc main_arg7) := by
  obtain ⟨o0, o1, o2, d0, d1, d2, t0, t1, t2, r0, r1, r2, q0, q1, q2, w40, w41, w50, w60, w61, w70, w80, w81, w90⟩ := idx_facts t
  funext x
  unfold iblk
  rw [View.read_apply]
  show V m c main_arg7 _ = m ((c.tc : Thread nD τ).loc main_arg7) x
  rw [V_main_arg7]
  congr 1
  funext a
  apply Fin.ext
  match a with
  | ⟨0, _⟩ => show win0_9.index t (0 : Fin 1) * 1 + 1 * (x 0).val = (x 0).val; omega

/-- Entry `(0, p, q)` of the block a point leaves in the output buffer is the entry of the whole-array function at row
    `256 i + p` and column `256 j + q` of batch `b`, where `(b, i, j)` are the point's coordinates. -/
theorem entry_eq (c : Dev nD) (t : Fin cfg0.N) (p q : Fin 256) (b : Fin 8) (r s : Fin 1024)
    (h0 : b.val = (grid0.coords t 0).val) (h1 : r.val = (grid0.coords t 1).val * 256 + p.val)
    (h2 : s.val = (grid0.coords t 2).val * 256 + q.val) :
    outv (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) p q)
      = Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b r s) := by
  rw [outv_apply]
  rw [w1_block, b1_block, w2_block, b2_block, w3_block, b3_block,
    sim_block m c t (ix3 (0 : Fin 1) p q) (ix3 b r s) h0 h1 h2,
    simT_block m c t (ix3 (0 : Fin 1) q p) (ix3 b s r) h0 h2 h1,
    maskrow_block m c t (ix3 (0 : Fin 1) (0 : Fin 1) p) b r h0 h1,
    maskcol_block m c t (ix3 (0 : Fin 1) (0 : Fin 1) q) b s h0 h2, ← h1, ← h2]
  rfl

/-- What a point writes back is its block of the whole-array function of the argument arrays as launched. -/
theorem flushed_eq (c : Dev nD) (t : Fin cfg0.N) :
    (dats (F := Ideal) m 0 c).flushed 10 t
      = ((cfg0.win 10).blk t).view.read (Elt Ideal) (Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show (cfg0.win 10).cut (grid0.coords t) ((dats m 0 c).after 10 t) = _
  rw [after10]
  funext y
  obtain ⟨o0, o1, o2, d0, d1, d2, t0, t1, t2, r0, r1, r2, q0, q1, q2, w40, w41, w50, w60, w61, w70, w80, w81, w90⟩ := idx_facts t
  have hb : (grid0.coords t 0).val < 8 := (grid0.coords t 0).isLt
  have hi : (grid0.coords t 1).val < 4 := (grid0.coords t 1).isLt
  have hj : (grid0.coords t 2).val < 4 := (grid0.coords t 2).isLt
  have hy0 : (y 0).val < 1 := (y 0).isLt
  have hy1 : (y 1).val < 256 := (y 1).isLt
  have hy2 : (y 2).val < 256 := (y 2).isLt
  have e1 : (cfg0.win 10).xinj (grid0.coords t) y = ix3 (0 : Fin 1) (⟨(y 1).val, hy1⟩ : Fin 256) (⟨(y 2).val, hy2⟩ : Fin 256) :=
    funext fun a => Fin.ext (by
      match a with
      | ⟨0, _⟩ => show (y 0).val = 0; omega
      | ⟨1, _⟩ => rfl
      | ⟨2, _⟩ => rfl)
  have e2 : ((cfg0.win 10).blk t).view.emb y
      = ix3 (⟨(grid0.coords t 0).val, hb⟩ : Fin 8) (⟨(grid0.coords t 1).val * 256 + (y 1).val, by omega⟩ : Fin 1024)
          (⟨(grid0.coords t 2).val * 256 + (y 2).val, by omega⟩ : Fin 1024) :=
    funext fun a => Fin.ext (by
      match a with
      | ⟨0, _⟩ => show win0_10.index t (0 : Fin 3) * 1 + 1 * (y 0).val = (grid0.coords t 0).val; omega
      | ⟨1, _⟩ => show win0_10.index t (1 : Fin 3) * 256 + 1 * (y 1).val = (grid0.coords t 1).val * 256 + (y 1).val; omega
      | ⟨2, _⟩ => show win0_10.index t (2 : Fin 3) * 256 + 1 * (y 2).val = (grid0.coords t 2).val * 256 + (y 2).val; omega)
  rw [View.read_apply]
  show outv (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) y)
      = Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 10).blk t).view.emb y)
  rw [e1, e2]
  exact entry_eq m c t _ _ _ _ _ rfl rfl rfl

/-- An entry of the output array is in a point's block exactly when each coordinate is in the block's range on its axis. -/
theorem mem_blk (t : Fin cfg0.N) (i : S8x1024x1024.Idx) :
    i ∈ ((cfg0.win 10).blk t).view.set ↔ ∀ a : Fin 3, win0_10.index t a * S1x256x256.size a ≤ (i a).val ∧ (i a).val < win0_10.index t a * S1x256x256.size a + S1x256x256.size a := by
  show i ∈ ((View.whole main_v2).slice (win0_10.rect t)).set ↔ _
  rw [View.set_slice_whole, Rect.mem_set_unit]
  exact Iff.rfl

/-- The tiles cover the output array: entry `(b, r, c)` is in the block of the point with coordinates
    `(b, r / 256, c / 256)`, and every point writes its block back. -/
theorem tiles_cover (i : S8x1024x1024.Idx) :
    ∃ t : Fin cfg0.N, (cfg0.win 10).flush t = true ∧ i ∈ ((cfg0.win 10).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩ ⟨(i 2).val / 256, by omega⟩
  have q0 : win0_10.index t (0 : Fin 3) = (i 0).val := congrFun ht 0
  have q1 : win0_10.index t (1 : Fin 3) = (i 1).val / 256 := congrFun ht 1
  have q2 : win0_10.index t (2 : Fin 3) = (i 2).val / 256 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 256 ≤ (i 2).val ∧ (i 2).val < win0_10.index t (2 : Fin 3) * 256 + 256; omega

/-- After the last grid point the output array is `Gk` of the argument arrays as launched: each grid point writes back the
    block of `Gk` its index names, and the blocks cover the array. -/
theorem final (c : Dev nD) :
    (dats (F := Ideal) m 0 c).arrAt 10 cfg0.N = Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  exact (dats m 0 c).arrAt_eq_of_cover 10 (Gk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (fun t _ => flushed_eq m c t) tiles_cover

end Cert.KernelIdeal.Hand

end
-- ==== Proof.RefValue.lean ====
import proofs.«134683_j58007828300453_1_alg».proof.Proof.Gen.ReferenceIdeal.Run
import proofs.«134683_j58007828300453_1_alg».proof.Proof.Gen.ReferenceIdeal.Read
import proofs.«134683_j58007828300453_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! The reference's result read at one entry, on the extended reals. -/

set_option maxRecDepth 16384

noncomputable section

namespace Cert.ReferenceIdeal.RefValue

open Idealize.ShloMosaic Idealize.ShloMosaic.TcCoe Idealize.ShloMosaic.ValueIdx
open Idealize.SL.Sem
open Cert.ReferenceIdeal Cert.ReferenceIdeal.Gen Cert.ReferenceIdeal.Read

/-- The first hidden layer's unit `g` at entry `(b, r, c)`. -/
theorem hid1_apply (x0 : (⟨S8x1024x1024, .f32⟩ : BufTy).Contents (Elt Ideal)) (x2 : (⟨S1x32, .f32⟩ : BufTy).Contents (Elt Ideal)) (x3 : (⟨S32, .f32⟩ : BufTy).Contents (Elt Ideal)) (b : Fin 8) (r c : Fin 1024) (g : Fin 32) :
    val_main_v14 (F := Ideal) x0 x2 x3 (ix4 b r c g)
      = Cert.Spec.hid1 (fun g => x2 (ix2 (0 : Fin 1) g)) (fun g => x3 (ix1 g)) (x0 (ix3 b r c)) g := by
  have e0 : idx_main_v5 (idx_main_v8 (ix4 b r c g)) = ix3 b r c :=
    funext fun a => Fin.ext (by match a with | ⟨0, _⟩ => rfl | ⟨1, _⟩ => rfl | ⟨2, _⟩ => rfl)
  have e2 : idx_main_v6 (idx_main_v7 (idx_main_v9 (ix4 b r c g))) = ix2 (0 : Fin 1) g :=
    funext fun a => Fin.ext (by match a with | ⟨0, _⟩ => rfl | ⟨1, _⟩ => exact Nat.mod_eq_of_lt g.isLt)
  have e3 : idx_main_v11 (idx_main_v12 (ix4 b r c g)) = ix1 g :=
    funext fun a => Fin.ext (by match a with | ⟨0, _⟩ => rfl)
  rw [val_main_v14_apply, val_main_v13_apply, val_main_v10_apply, val_main_v8_apply, val_main_v5_apply, e0,
    val_main_v9_apply, val_main_v7_apply, val_main_v6_apply, e2, val_main_v12_apply, val_main_v11_apply, e3,
    val_main_call0_v0_apply, val_main_call0_cst_apply]
  rfl

/-- The second hidden layer's unit `k` at entry `(b, r, c)`. -/
theorem hid2_apply (x0 : (⟨S8x1024x1024, .f32⟩ : BufTy).Contents (Elt Ideal)) (x2 : (⟨S1x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (b : Fin 8) (r c : Fin 1024) (k : Fin 32) :
    val_main_v19 (F := Ideal) x0 x2 x3 x4 x5 (ix4 b r c k)
      = Cert.Spec.hid2 (fun g => x2 (ix2 (0 : Fin 1) g)) (fun g => x3 (ix1 g)) (fun g k => x4 (ix2 g k)) (fun k => x5 (ix1 k)) (x0 (ix3 b r c)) k := by
  have el : ∀ g : Fin 32, lidx_main_v15 (ix4 b r c k) g = ix4 b r c g := fun g =>
    funext fun a => Fin.ext (by match a with | ⟨0, _⟩ => rfl | ⟨1, _⟩ => rfl | ⟨2, _⟩ => rfl | ⟨3, _⟩ => rfl)
  have er : ∀ g : Fin 32, ridx_main_v15 (ix4 b r c k) g = ix2 g k := fun g =>
    funext fun a => Fin.ext (by match a with | ⟨0, _⟩ => rfl | ⟨1, _⟩ => rfl)
  have e5 : idx_main_v16 (idx_main_v17 (ix4 b r c k)) = ix1 k :=
    funext fun a => Fin.ext (by match a with | ⟨0, _⟩ => rfl)
  rw [val_main_v19_apply, val_main_v18_apply, val_main_v15_apply, val_main_v17_apply, val_main_v16_apply, e5,
    val_main_call1_v0_apply, val_main_call1_cst_apply]
  simp only [el, er, hid1_apply]
  rfl

/-- The score of entry `(b, r, c)`: the reciprocal of one plus the exponential of the negated third layer. -/
theorem score_apply (x0 : (⟨S8x1024x1024, .f32⟩ : BufTy).Contents (Elt Ideal)) (x2 : (⟨S1x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (b : Fin 8) (r c : Fin 1024) :
    val_main_v30 (F := Ideal) x0 x2 x3 x4 x5 x6 x7 (ix3 b r c) = (Cert.Spec.score (fun g => x2 (ix2 (0 : Fin 1) g)) (fun g => x3 (ix1 g)) (fun g k => x4 (ix2 g k)) (fun k => x5 (ix1 k)) (fun k => x6 (ix2 k (0 : Fin 1))) (x7 (ix1 (0 : Fin 1))) (x0 (ix3 b r c))) := by
  have e30 : idx_main_v30 (ix3 b r c) = ix4 b r c (0 : Fin 1) := by
    have hb := b.isLt; have hr := r.isLt; have hc := c.isLt
    exact funext fun a => Fin.ext (by
      match a with
      | ⟨0, _⟩ => show ((b.val * 1024 + r.val) * 1024 + c.val) / 1048576 = b.val; omega
      | ⟨1, _⟩ => show ((b.val * 1024 + r.val) * 1024 + c.val) / 1024 % 1024 = r.val; omega
      | ⟨2, _⟩ => show ((b.val * 1024 + r.val) * 1024 + c.val) / 1 % 1024 = c.val; omega
      | ⟨3, _⟩ => rfl)
  have el : ∀ k : Fin 32, lidx_main_v20 (ix4 b r c (0 : Fin 1)) k = ix4 b r c k := fun k =>
    funext fun a => Fin.ext (by match a with | ⟨0, _⟩ => rfl | ⟨1, _⟩ => rfl | ⟨2, _⟩ => rfl | ⟨3, _⟩ => rfl)
  have er : ∀ k : Fin 32, ridx_main_v20 (ix4 b r c (0 : Fin 1)) k = ix2 k (0 : Fin 1) := fun k =>
    funext fun a => Fin.ext (by match a with | ⟨0, _⟩ => rfl | ⟨1, _⟩ => rfl)
  have e7 : idx_main_v21 (idx_main_v22 (ix4 b r c (0 : Fin 1))) = ix1 (0 : Fin 1) :=
    funext fun a => Fin.ext (by match a with | ⟨0, _⟩ => rfl)
  rw [val_main_v30_apply, e30, val_main_v29_apply, val_main_v28_apply, val_main_cst_0_apply, val_main_v27_apply,
    val_main_v26_apply, val_main_cst_apply, val_main_v25_apply, val_main_v24_apply, val_main_v23_apply,
    val_main_v20_apply, val_main_v22_apply, val_main_v21_apply, e7]
  simp only [el, er, hid2_apply]
  rw [Ideal.ofBits_def, Ideal.ofBits_one_f32]
  rfl

/-- The identity matrix's entry as a number: the 32-bit words of two numbers below 1024 are equal exactly when the
    numbers are. -/
theorem eye_word (r c : Fin 1024) :
    FloatOps.uitofp (F := Ideal) .f32 (IntOp.cmpi .eq (IntOp.addi (BitVec.ofNat 32 r.val) 0#32) (BitVec.ofNat 32 c.val))
      = if r.val = c.val then (1 : EReal) else 0 := by
  show (((IntOp.cmpi .eq (IntOp.addi (BitVec.ofNat 32 r.val) 0#32) (BitVec.ofNat 32 c.val)).toNat : ℝ) : EReal) = _
  have hr := r.isLt
  have hc := c.isLt
  unfold IntOp.cmpi IntOp.addi
  simp only [BitVec.add_zero]
  by_cases h : r.val = c.val
  · rw [if_pos h, h]; simp
  · rw [if_neg h]
    have hne : (BitVec.ofNat 32 r.val == BitVec.ofNat 32 c.val) = false := by
      rw [beq_eq_false_iff_ne]
      intro e
      apply h
      have e' := congrArg BitVec.toNat e
      simp only [BitVec.toNat_ofNat] at e'
      omega
    simp [hne]

/-- One minus the identity matrix's entry at `(r, c)`, in every batch. -/
theorem eye_apply (b : Fin 8) (r c : Fin 1024) :
    val_main_v45 (F := Ideal) (ix3 b r c) = 1 - (if r.val = c.val then (1 : EReal) else 0) := by
  have e : idx_main_v44 (idx_main_v45 (ix3 b r c)) = ix2 r c :=
    funext fun a => Fin.ext (by match a with | ⟨0, _⟩ => rfl | ⟨1, _⟩ => rfl)
  rw [val_main_v45_apply, val_main_v44_apply, e, val_main_v43_apply, val_main_v42_apply, val_main_cst_3_apply,
    val_main_v41_apply, val_main_v40_apply, val_main_v39_apply, val_main_v36_apply, val_main_v37_apply,
    val_main_v38_apply, val_main_c_apply, Ideal.ofBits_def, Ideal.ofBits_one_f32, Ideal.subf_def]
  exact congrArg (fun t => (1 : EReal) - t) (eye_word r c)

/-- Both nodes of entry `(b, r, c)` are valid: the conjunction of the two node masks. -/
theorem pair_apply (x1 : (⟨S8x1024, .i1⟩ : BufTy).Contents (Elt Ideal)) (b : Fin 8) (r c : Fin 1024) :
    val_main_v4 (F := Ideal) x1 (ix3 b r c) = IntOp.andi (x1 (ix2 b r)) (x1 (ix2 b c)) := by
  have e2 : idx_main_v0 (idx_main_v2 (ix3 b r c)) = ix2 b r :=
    funext fun a => Fin.ext (by match a with | ⟨0, _⟩ => rfl | ⟨1, _⟩ => rfl)
  have e3 : idx_main_v1 (idx_main_v3 (ix3 b r c)) = ix2 b c :=
    funext fun a => Fin.ext (by match a with | ⟨0, _⟩ => rfl | ⟨1, _⟩ => rfl)
  rw [val_main_v4_apply, val_main_v2_apply, val_main_v0_apply, e2, val_main_v3_apply, val_main_v1_apply, e3]

/-- The selected score of entry `(b, r, c)`: the score where both nodes are valid, zero elsewhere. -/
theorem gate_apply (x0 : (⟨S8x1024x1024, .f32⟩ : BufTy).Contents (Elt Ideal)) (x1 : (⟨S8x1024, .i1⟩ : BufTy).Contents (Elt Ideal)) (x2 : (⟨S1x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (b : Fin 8) (r c : Fin 1024) :
    val_main_v31 (F := Ideal) x0 x1 x2 x3 x4 x5 x6 x7 (ix3 b r c)
      = Cert.Spec.gate (x1 (ix2 b r)) (x1 (ix2 b c)) (Cert.Spec.score (fun g => x2 (ix2 (0 : Fin 1) g)) (fun g => x3 (ix1 g)) (fun g k => x4 (ix2 g k)) (fun k => x5 (ix1 k)) (fun k => x6 (ix2 k (0 : Fin 1))) (x7 (ix1 (0 : Fin 1))) (x0 (ix3 b r c))) := by
  rw [val_main_v31_apply, pair_apply, score_apply, val_main_call2_v0_apply, val_main_cst_1_apply]
  rfl

/-- Entry `(b, r, c)` of the reference's result: half the sum of the selected score of entry `(b, r, c)` and of entry
    `(b, c, r)`, times one minus the identity matrix's entry at `(r, c)`. -/
theorem ref_apply (x0 : (⟨S8x1024x1024, .f32⟩ : BufTy).Contents (Elt Ideal)) (x1 : (⟨S8x1024, .i1⟩ : BufTy).Contents (Elt Ideal)) (x2 : (⟨S1x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal))
    (b : Fin 8) (r c : Fin 1024) :
    val_main_v46 (F := Ideal) x0 x1 x2 x3 x4 x5 x6 x7 (ix3 b r c)
      = Cert.Spec.refcell (Cert.Spec.score (fun g => x2 (ix2 (0 : Fin 1) g)) (fun g => x3 (ix1 g)) (fun g k => x4 (ix2 g k)) (fun k => x5 (ix1 k)) (fun k => x6 (ix2 k (0 : Fin 1))) (x7 (ix1 (0 : Fin 1))) (x0 (ix3 b r c)))
          (Cert.Spec.score (fun g => x2 (ix2 (0 : Fin 1) g)) (fun g => x3 (ix1 g)) (fun g k => x4 (ix2 g k)) (fun k => x5 (ix1 k)) (fun k => x6 (ix2 k (0 : Fin 1))) (x7 (ix1 (0 : Fin 1))) (x0 (ix3 b c r)))
          (x1 (ix2 b r)) (x1 (ix2 b c)) r.val c.val := by
  have e32 : idx_main_v32 (ix3 b r c) = ix3 b c r :=
    funext fun a => Fin.ext (by match a with | ⟨0, _⟩ => rfl | ⟨1, _⟩ => rfl | ⟨2, _⟩ => rfl)
  rw [val_main_v46_apply, val_main_v35_apply, val_main_v34_apply, val_main_cst_2_apply, val_main_v33_apply,
    val_main_v32_apply, e32, gate_apply, gate_apply, eye_apply]
  rfl

end Cert.ReferenceIdeal.RefValue

end
-- ==== Proof.Bridge.lean ====
import proofs.«134683_j58007828300453_1_alg».proof.Proof.Spec
import Idealize.ShloMosaic.PureOps.Ideal.Laws
import Idealize.ShloMosaic.Lib.IdealHost

/-! The kernel's entry and the reference's entry are one number.

Where both nodes are valid the two masks are one, their product is one, and the reference selects both scores: both
sides are half the sum of the scores times the off-diagonal indicator. Where a node is invalid a mask is zero, the
kernel's product vanishes, and the reference selects zero twice: both sides are zero. Zero annihilates every extended
real, so no finiteness is needed. One minus the identity's entry is the off-diagonal indicator. -/

noncomputable section

namespace Cert.Spec

open Idealize.ShloMosaic

/-- A one-bit word is zero or one. -/
theorem bit_cases (m : BitVec 1) : m = 0#1 ∨ m = 1#1 := by
  revert m; decide

/-- One minus the identity matrix's entry is the off-diagonal indicator. -/
theorem one_sub_eye (r c : Nat) : (1 : EReal) - (if r = c then (1 : EReal) else 0) = offdiag r c := by
  unfold offdiag
  by_cases h : r = c
  · rw [if_pos h, if_pos h]
    rw [show (1 : EReal) = ((1 : ℝ) : EReal) from rfl, ← EReal.coe_sub, sub_self]; rfl
  · rw [if_neg h, if_neg h, sub_zero]

/-- The kernel's entry — the product with the masks as numbers — is the reference's entry — the selection by the masks
    as bits. -/
theorem cell_eq_refcell (a b : EReal) (mr mc : BitVec 1) (r c : Nat) :
    cell a b (FloatOps.uitofp (F := Ideal) .f32 mr) (FloatOps.uitofp (F := Ideal) .f32 mc) (offdiag r c)
      = refcell a b mr mc r c := by
  unfold cell refcell gate
  rw [one_sub_eye]
  show Ideal.ofBits .f32 0x3F000000#32 * (a + b) * ((((mr.toNat : ℝ) : EReal)) * (((mc.toNat : ℝ) : EReal))) * offdiag r c = _
  rcases bit_cases mr with rfl | rfl <;> rcases bit_cases mc with rfl | rfl
  · simp [Ideal.ofBits_zero_f32]
  · simp [Ideal.ofBits_zero_f32]
  · simp [Ideal.ofBits_zero_f32]
  · simp

end Cert.Spec

end
-- ==== Proof.lean ====
import proofs.«134683_j58007828300453_1_alg».proof.Defs
import proofs.«134683_j58007828300453_1_alg».proof.Proof.Gen.Kernel
import proofs.«134683_j58007828300453_1_alg».proof.Proof.Gen.KernelIdeal
import proofs.«134683_j58007828300453_1_alg».proof.Proof.Gen.ReferenceIdeal
import proofs.«134683_j58007828300453_1_alg».proof.Proof.Gen.Pre_finite_inputs
import proofs.«134683_j58007828300453_1_alg».proof.Proof.Gen.ReferenceIdeal.Run
import proofs.«134683_j58007828300453_1_alg».proof.Proof.Gen.ReferenceIdeal.Read
import proofs.«134683_j58007828300453_1_alg».proof.Proof.LaunchBits
import proofs.«134683_j58007828300453_1_alg».proof.Proof.LaunchIdeal
import proofs.«134683_j58007828300453_1_alg».proof.Proof.FinalIdeal
import proofs.«134683_j58007828300453_1_alg».proof.Proof.RefValue
import proofs.«134683_j58007828300453_1_alg».proof.Proof.Bridge
import Idealize.ShloMosaic.Adequacy
import Idealize.ShloMosaic.Init

/-! The masked, symmetrised pairwise score: a fused kernel against its array-level reference.

Both programs apply one three-layer perceptron with a logistic output to every entry of a batch of square similarity
matrices, average each entry with its mirror image, and keep the result only where both nodes are valid and off the
diagonal. The kernel does it tile by tile in one pipelined region, reading each tile and its mirror tile, multiplying
with the node masks as numbers and with an off-diagonal indicator; the reference selects by the masks as bits before the
symmetrisation and multiplies with one minus the identity matrix. On the extended reals the two are equal entry by
entry: sums over the thirty-two hidden units are the same sums, the logistic function is the reciprocal of one plus the
exponential of the negated argument by definition, and a product with a zero mask is zero whatever the other factor is.
No finiteness of the inputs is used.

The three frames: the reference is a straight line of array operations, whose run gives its frame; the two kernel
programs run one region whose windows share two arrays, each held in halves; the body runs at every grid point from the
input blocks alone. -/

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's run on the extended reals: the output array ends at the closed form of the arguments, the arguments
    unchanged. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2) = Cert.KernelIdeal.Hand.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c => ⟨((h c).1 10).trans (Cert.KernelIdeal.Hand.final m c),
      ((h c).1 0).trans (((Cert.KernelIdeal.Hand.dats m 0 c).arrAt_in 0 rfl _).trans ((Cert.KernelIdeal.Hand.A_eq m c 0).trans (Cert.KernelIdeal.Hand.V_main_arg0 m c))),
      ((h c).2 Cert.KernelIdeal.main_arg1 (Pipeline.mem_restRefs_of Cert.KernelIdeal.main_arg1 rfl (by decide))).trans (Cert.KernelIdeal.Hand.V_main_arg1 m c),
      ((h c).1 4).trans (((Cert.KernelIdeal.Hand.dats m 0 c).arrAt_in 4 rfl _).trans ((Cert.KernelIdeal.Hand.A_eq m c 4).trans (Cert.KernelIdeal.Hand.V_main_arg2 m c))),
      ((h c).1 5).trans (((Cert.KernelIdeal.Hand.dats m 0 c).arrAt_in 5 rfl _).trans ((Cert.KernelIdeal.Hand.A_eq m c 5).trans (Cert.KernelIdeal.Hand.V_main_arg3 m c))),
      ((h c).1 6).trans (((Cert.KernelIdeal.Hand.dats m 0 c).arrAt_in 6 rfl _).trans ((Cert.KernelIdeal.Hand.A_eq m c 6).trans (Cert.KernelIdeal.Hand.V_main_arg4 m c))),
      ((h c).1 7).trans (((Cert.KernelIdeal.Hand.dats m 0 c).arrAt_in 7 rfl _).trans ((Cert.KernelIdeal.Hand.A_eq m c 7).trans (Cert.KernelIdeal.Hand.V_main_arg5 m c))),
      ((h c).1 8).trans (((Cert.KernelIdeal.Hand.dats m 0 c).arrAt_in 8 rfl _).trans ((Cert.KernelIdeal.Hand.A_eq m c 8).trans (Cert.KernelIdeal.Hand.V_main_arg6 m c))),
      ((h c).1 9).trans (((Cert.KernelIdeal.Hand.dats m 0 c).arrAt_in 9 rfl _).trans ((Cert.KernelIdeal.Hand.A_eq m c 9).trans (Cert.KernelIdeal.Hand.V_main_arg7 m c)))⟩) (Cert.KernelIdeal.Hand.run_main m ρ)

/-- The reference's result is the kernel's closed form of the same arguments, entry by entry. -/
theorem ref_eq_Gk (x0 : FVec Ideal Cert.KernelIdeal.S8x1024x1024 .f32) (x1 : IVec Cert.KernelIdeal.S8x1024 1) (x2 : FVec Ideal Cert.KernelIdeal.S1x32 .f32) (x3 : FVec Ideal Cert.KernelIdeal.S32 .f32)
    (x4 : FVec Ideal Cert.KernelIdeal.S32x32 .f32) (x5 : FVec Ideal Cert.KernelIdeal.S32 .f32) (x6 : FVec Ideal Cert.KernelIdeal.S32x1 .f32) (x7 : FVec Ideal Cert.KernelIdeal.S1 .f32) :
    Cert.ReferenceIdeal.Read.val_main_v46 (F := Ideal) x0 x1 x2 x3 x4 x5 x6 x7 = Cert.KernelIdeal.Hand.Gk x0 x1 x2 x3 x4 x5 x6 x7 := by
  funext j
  obtain ⟨b, r, c, rfl⟩ : ∃ (b : Fin 8) (r c : Fin 1024), j = ix3 b r c := ⟨j 0, j 1, j 2, eq_ix3 j⟩
  rw [Cert.ReferenceIdeal.RefValue.ref_apply]
  exact (Cert.Spec.cell_eq_refcell _ _ _ _ _ _).symm

theorem algebraic : Cert.algebraic_KernelIdeal_ReferenceIdeal := by
  intro m ρ m' ρ' _ hagree
  refine ⟨fun c => Cert.KernelIdeal.Hand.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), run_ki m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact ref_eq_Gk _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
